-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg4 : FVec F S64 .f32) (main_arg5 : FVec F S100000x64 .f32) (main_arg6 : FVec F S100000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S100000x64 .f32 := Host.absf main_arg5
  let main_cst_8 : FVec F S_ .f32 := constant S_ .f32 0x7F800000#32
  let main_v25 : FVec F S100000x64 .f32 := broadcastInDim S100000x64 ![] bcast_S_S100000x64 main_cst_8
  let main_v26 : IVec S100000x64 1 := cmpf .olt main_v24 main_v25
  let main_c_9 : IVec S_ 1 := constantI S_ 1 1#1
  let main_v27 : IVec S_ 1 := (fun x v => Host.reduce IntOp.andi x v reducesTo_S100000x64_S_d0_1 h_S_) main_v26 main_c_9
  let main_v28 : IVec S_ 1 := andi main_v23 main_v27
  let main_v29 : FVec F S100000x64 .f32 := Host.absf main_arg6
  let main_cst_10 : FVec F S_ .f32 := constant S_ .f32 0x7F800000#32
  let main_v30 : FVec F S100000x64 .f32 := broadcastInDim S100000x64 ![] bcast_S_S100000x64 main_cst_10
  let main_v31 : IVec S100000x64 1 := cmpf .olt main_v29 main_v30
  let main_c_11 : IVec S_ 1 := constantI S_ 1 1#1
  let main_v32 : IVec S_ 1 := (fun x v => Host.reduce IntOp.andi x v reducesTo_S100000x64_S_d0_1 h_S_) main_v31 main_c_11
  let main_v33 : IVec S_ 1 := andi main_v28 main_v32
  main_v33

def fn {F : FTy → Type} [FloatOps F] (main_arg0 : FVec F S1024x64 .f32) (main_arg1 : FVec F S64x128 .f32) (main_arg2 : FVec F S128 .f32) (main_arg3 : FVec F S128x64 .f32) (main_arg4 : FVec F S64 .f32) (main_arg5 : FVec F S100000x64 .f32) (main_arg6 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_v13 main_v16
-- ==== Kernel.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1x128 : Shape := ⟨2, ![1, 128]⟩
abbrev S1x64 : Shape := ⟨2, ![1, 64]⟩
abbrev S2000x64 : Shape := ⟨2, ![2000, 64]⟩
abbrev S1024x128 : Shape := ⟨2, ![1024, 128]⟩
abbrev S1024x2000 : Shape := ⟨2, ![1024, 2000]⟩
abbrev S2000x128 : Shape := ⟨2, ![2000, 128]⟩

abbrev nBuf : Space → Nat
  | .hbm => 10
  | .vmem => 12
  | .smem => 0
  | _ => 0

abbrev bufTy : (tb : Table) → Fin (tcTables nBuf tb) → BufTy
  | .hbm, ⟨0, _⟩ => ⟨S1024x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S100000x64, .f32⟩
  | .hbm, ⟨7, _⟩ => ⟨S1x128, .f32⟩
  | .hbm, ⟨8, _⟩ => ⟨S1x64, .f32⟩
  | .hbm, ⟨9, _⟩ => ⟨S1024x64, .f32⟩
  | .local _ .vmem, ⟨0, _⟩ => ⟨S1024x64, .f32⟩
  | .local _ .vmem, ⟨1, _⟩ => ⟨S64x128, .f32⟩
  | .local _ .vmem, ⟨2, _⟩ => ⟨S1x128, .f32⟩
  | .local _ .vmem, ⟨3, _⟩ => ⟨S128x64, .f32⟩
  | .local _ .vmem, ⟨4, _⟩ => ⟨S1x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S1024x64, .f32⟩
  | .local _ .vmem, ⟨10, _⟩ => ⟨S1024x64, .bf16⟩
  | .local _ .vmem, ⟨11, _⟩ => ⟨S1024x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S128_S1x128 : S128.ShapeCasts S1x128
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  bitsLt_bf16_f32 : FTy.bits .bf16 < FTy.bits .f32
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2000x64_S2000x64_0_0 : ∀ a, (![0, 0] : Fin 2 → Nat) a + S2000x64.size a ≤ S2000x64.size a
  h_S2000x64 : 0 < S2000x64.numel
  concatenates_S2000x64_S2000x64_S2000x128_d1 : Shape.Concatenates [S2000x64, S2000x64] S2000x128 1
  inb_S1024x128_S1024x64_0_0 : ∀ a, (![0, 0] : Fin 2 → Nat) a + S1024x64.size a ≤ S1024x128.size a
  inb_S1024x128_S1024x64_0_64 : ∀ a, (![0, 64] : Fin 2 → Nat) a + S1024x64.size a ≤ S1024x128.size a
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  dot_S1024x64_S2000x64_S1024x2000_1_1_0_0_n_n_wf : DotDims.WF S1024x64 S2000x64 S1024x2000 [1] [1] [0] [0] [] []
  dot_S1024x2000_S2000x128_S1024x128_1_0_0_1_n_n_wf : DotDims.WF S1024x2000 S2000x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S2000x64_S1024x2000_1_1_0_0_n_n : DotDims S1024x64 S2000x64 S1024x2000 where
  lhsContracting := [1]
  rhsContracting := [1]
  lhsNonContracting := [0]
  rhsNonContracting := [0]
  lhsBatch := []
  rhsBatch := []
  wf := dot_S1024x64_S2000x64_S1024x2000_1_1_0_0_n_n_wf
def dot_S1024x2000_S2000x128_S1024x128_1_0_0_1_n_n : DotDims S1024x2000 S2000x128 S1024x128 where
  lhsContracting := [1]
  rhsContracting := [0]
  lhsNonContracting := [0]
  rhsNonContracting := [1]
  lhsBatch := []
  rhsBatch := []
  wf := dot_S1024x2000_S2000x128_S1024x128_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2000x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x64.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S1024x64 : Shape := ⟨2, ![1024, 64]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000x64 : Shape := ⟨2, ![100000, 64]⟩
abbrev S1024x128 : Shape := ⟨2, ![1024, 128]⟩
abbrev S1x128 : Shape := ⟨2, ![1, 128]⟩
abbrev S_ : Shape := ⟨0, ![]⟩
abbrev S1x64 : Shape := ⟨2, ![1, 64]⟩
abbrev S64x100000 : Shape := ⟨2, ![64, 100000]⟩
abbrev S1024x100000 : Shape := ⟨2, ![1024, 100000]⟩
abbrev S1024 : Shape := ⟨1, ![1024]⟩
abbrev S1024x1 : Shape := ⟨2, ![1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S64x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S100000x64, .f32⟩
  | .hbm, ⟨6, _⟩ => ⟨S100000x64, .f32⟩
  | .hbm, ⟨7, _⟩ => ⟨S1024x128, .f32⟩
  | .hbm, ⟨8, _⟩ => ⟨S1x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S1024x64, .f32⟩
  | .hbm, ⟨15, _⟩ => ⟨S1x64, .f32⟩
  | .hbm, ⟨16, _⟩ => ⟨S1024x64, .f32⟩
  | .hbm, ⟨17, _⟩ => ⟨S1024x64, .f32⟩
  | .hbm, ⟨18, _⟩ => ⟨S64x100000, .f32⟩
  | .hbm, ⟨19, _⟩ => ⟨S1024x100000, .f32⟩
  | .hbm, ⟨20, _⟩ => ⟨S_, .f32⟩
  | .hbm, ⟨21, _⟩ => ⟨S1024x100000, .f32⟩
  | .hbm, ⟨22, _⟩ => ⟨S1024x100000, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x100000, .f32⟩
  | .hbm, ⟨30, _⟩ => ⟨S1024x100000, .f32⟩
  | .hbm, ⟨31, _⟩ => ⟨S1024x100000, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x100000, .f32⟩
  | .hbm, ⟨36, _⟩ => ⟨S1024x100000, .f32⟩
  | .hbm, ⟨37, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  transposes_S100000x64_S64x100000_1_0 : S100000x64.Transposes [1, 0] S64x100000
  bcast_S_S1024x100000 : S_.BroadcastsInDim S1024x100000 (![] : Fin 0 → Fin S1024x100000.rank)
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  dot_S1024x64_S64x100000_S1024x100000_1_0_0_1_n_n_wf : DotDims.WF S1024x64 S64x100000 S1024x100000 [1] [0] [0] [1] [] []
  dot_S1024x100000_S100000x64_S1024x64_1_0_0_1_n_n_wf : DotDims.WF S1024x100000 S100000x64 S1024x64 [1] [0] [0] [1] [] []

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf

class Facts : Prop extends Facts₀ where

variable [Facts]
-- ==== Proof.Pieces.lean ====
/-
  What each of the kernel body's three control cases leaves in the two carried buffers and in the output's staging
  buffer, as one stored value of the values it loaded.

  Every store of the body writes a whole buffer, so what a buffer holds after the body is the value of the last store
  into it.  A load of an input reads the input's block; a load of a carried buffer after a store into it in the same
  body reads what that store wrote, and before any store it reads what the previous grid point left.  At the first
  grid point the body stores the projected query, resets the accumulator to zero and then updates it; at the middle
  points it only updates the accumulator; at the last point it updates the accumulator and then stores the quotient of
  its two column halves (columns 0..63 by columns 64..127) into the output.
-/
import proofs.«182132_g32512902431185_cont_8to1_b_648_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Attn.Pieces

open Cert.KernelIdeal Cert.KernelIdeal.Gen Idealize.ShloMosaic
open Idealize.ShloMosaic.ValueIdx

variable {F : FTy → Type} [FloatOps F]

/-- The zero offsets of a rank-2 access, however they are spelt. -/
theorem hz : (![0, 0] : Fin 2 → Nat) = fun _ => 0 := funext fun a => by fin_cases a <;> rfl

/-! ## The two column halves of the accumulator

The accumulator is 1024 rows of 128 columns: columns 0..63 carry the weighted sum of the values, columns 64..127 the
softmax denominator (every one of them the same sum). The last grid point reads each half through a unit-stride
rectangle of 1024 x 64 elements, at column offset 0 and at column offset 64. -/

/-- Columns 0..63 of `a`: `a` read through the 1024 x 64 rectangle at offset (0, 0). -/
def loHalf (a : Vec F S1024x128 .f32) : Vec F S1024x64 .f32 :=
  View.ld a (Rect.unit (s := S1024x128) ![0, 0] S1024x64.size inb_S1024x128_S1024x64_0_0)

/-- Columns 64..127 of `a`: `a` read through the 1024 x 64 rectangle at offset (0, 64). -/
def hiHalf (a : Vec F S1024x128 .f32) : Vec F S1024x64 .f32 :=
  View.ld a (Rect.unit (s := S1024x128) ![0, 64] S1024x64.size inb_S1024x128_S1024x64_0_64)

/-- The low half at row `b`, column `j` is `a` at row `b`, column `j`. -/
theorem loHalf_apply (a : Vec F S1024x128 .f32) (b : Fin 1024) (j : Fin 64) :
    loHalf a (ix2 b j) = a (ix2 b ⟨j.val, by omega⟩) := by
  unfold loHalf
  show a _ = a _
  refine congrArg a (funext fun k => Fin.ext ?_)
  match k with
  | ⟨0, _⟩ => show 0 + 1 * b.val = b.val; omega
  | ⟨1, _⟩ => show 0 + 1 * j.val = j.val; omega

/-- The high half at row `b`, column `j` is `a` at row `b`, column `64 + j`. -/
theorem hiHalf_apply (a : Vec F S1024x128 .f32) (b : Fin 1024) (j : Fin 64) :
    hiHalf a (ix2 b j) = a (ix2 b ⟨64 + j.val, by omega⟩) := by
  unfold hiHalf
  show a _ = a _
  refine congrArg a (funext fun k => Fin.ext ?_)
  match k with
  | ⟨0, _⟩ => show 0 + 1 * b.val = b.val; omega
  | ⟨1, _⟩ => show 64 + 1 * j.val = 64 + j.val; omega

/-! ## What each control case leaves, as payloads of its inputs

Each case's stores are whole-buffer stores, so what a buffer holds after the body is the payload of its last store;
each whole-buffer load of an input reads the input, and a load of a scratch buffer after a whole-buffer store into it
in the same body reads that store's payload. -/

/-- Case A (the first grid point) leaves the projected query in the query scratch. -/
theorem sout0_A_0_eq (c : Dev nD) (i : grid0.Coords) (arg1 : Memref sig .tc .vmem S1024x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S1024x64 .f32) (harg8 : arg8.IsWhole) (arg9 : Memref sig .tc .vmem S1024x64 .bf16) (harg9 : arg9.IsWhole) (arg10 : Memref sig .tc .vmem S1024x128 .f32) (harg10 : arg10.IsWhole) (hc0 : cond0_0 i) (hc1 : ¬cond0_1 i)
    (x0 : Vec F S1024x64 .f32) (x1 : Vec F S64x128 .f32) (x2 : Vec F S1x128 .f32) (x3 : Vec F S128x64 .f32) (x4 : Vec F S1x64 .f32) (x5 : Vec F S2000x64 .f32) (x6 : Vec F S2000x64 .f32) :
    sout0_A_0 c i arg1 harg1 arg2 harg2 arg3 harg3 arg4 harg4 arg5 harg5 arg6 harg6 arg7 harg7 arg8 harg8 arg9 harg9 arg10 harg10 hc0 hc1 x0 x1 x2 x3 x4 x5 x6 = k0_pay1 x0 x1 x2 x3 x4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S1024x64) hz, View.ld_unit_zero (S := S64x128) hz, View.ld_unit_zero (S := S1x128) hz, View.ld_unit_zero (S := S128x64) hz, View.ld_unit_zero (S := S1x64) hz, View.ld_unit_zero (S := S2000x64) hz, View.ld_unit_zero (S := S1024x128) hz]

/-- Case A leaves in the accumulator the first block's update of the zero accumulator, the query read back from the
    query scratch being the projected query stored just before. -/
theorem sout0_A_1_eq (c : Dev nD) (i : grid0.Coords) (arg1 : Memref sig .tc .vmem S1024x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S1024x64 .f32) (harg8 : arg8.IsWhole) (arg9 : Memref sig .tc .vmem S1024x64 .bf16) (harg9 : arg9.IsWhole) (arg10 : Memref sig .tc .vmem S1024x128 .f32) (harg10 : arg10.IsWhole) (hc0 : cond0_0 i) (hc1 : ¬cond0_1 i)
    (x0 : Vec F S1024x64 .f32) (x1 : Vec F S64x128 .f32) (x2 : Vec F S1x128 .f32) (x3 : Vec F S128x64 .f32) (x4 : Vec F S1x64 .f32) (x5 : Vec F S2000x64 .f32) (x6 : Vec F S2000x64 .f32) :
    sout0_A_1 c i arg1 harg1 arg2 harg2 arg3 harg3 arg4 harg4 arg5 harg5 arg6 harg6 arg7 harg7 arg8 harg8 arg9 harg9 arg10 harg10 hc0 hc1 x0 x1 x2 x3 x4 x5 x6 = k0_pay3 x5 (k0_pay1 x0 x1 x2 x3 x4) x6 k0_pay2 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S1024x128) hz]
  simp only [View.readCov_unit_zero (S := S1024x64) _ hz, View.readCov_unit_zero (S := S1024x128) _ hz,
    View.readAt_eq_ld, harg1.read_unread, harg2.read_unread, harg3.read_unread, harg4.read_unread, harg5.read_unread, harg6.read_unread, harg7.read_unread, harg9.read_unread, harg10.read_unread, View.ld_unit_zero (S := S1024x64) hz, View.ld_unit_zero (S := S64x128) hz, View.ld_unit_zero (S := S1x128) hz, View.ld_unit_zero (S := S128x64) hz, View.ld_unit_zero (S := S1x64) hz, View.ld_unit_zero (S := S2000x64) hz, View.ld_unit_zero (S := S1024x128) hz]

/-- Case B (the middle grid points) leaves in the accumulator the block's update of what the scratches held. -/
theorem sout0_B_1_eq (c : Dev nD) (i : grid0.Coords) (arg1 : Memref sig .tc .vmem S1024x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S1024x64 .f32) (harg8 : arg8.IsWhole) (arg9 : Memref sig .tc .vmem S1024x64 .bf16) (harg9 : arg9.IsWhole) (arg10 : Memref sig .tc .vmem S1024x128 .f32) (harg10 : arg10.IsWhole) (hc0 : ¬cond0_0 i) (hc1 : ¬cond0_1 i)
    (x0 : Vec F S1024x64 .f32) (x1 : Vec F S64x128 .f32) (x2 : Vec F S1x128 .f32) (x3 : Vec F S128x64 .f32) (x4 : Vec F S1x64 .f32) (x5 : Vec F S2000x64 .f32) (x6 : Vec F S2000x64 .f32) (xs0 : Vec F S1024x64 .bf16) (xs1 : Vec F S1024x128 .f32) :
    sout0_B_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay3 x5 xs0 x6 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S1024x64) hz, View.ld_unit_zero (S := S64x128) hz, View.ld_unit_zero (S := S1x128) hz, View.ld_unit_zero (S := S128x64) hz, View.ld_unit_zero (S := S1x64) hz, View.ld_unit_zero (S := S2000x64) hz, View.ld_unit_zero (S := S1024x128) hz]

/-- Case C (the last grid point) leaves in the accumulator the same update. -/
theorem sout0_C_1_eq (c : Dev nD) (i : grid0.Coords) (arg1 : Memref sig .tc .vmem S1024x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S1024x64 .f32) (harg8 : arg8.IsWhole) (arg9 : Memref sig .tc .vmem S1024x64 .bf16) (harg9 : arg9.IsWhole) (arg10 : Memref sig .tc .vmem S1024x128 .f32) (harg10 : arg10.IsWhole) (hc0 : ¬cond0_0 i) (hc1 : cond0_1 i)
    (x0 : Vec F S1024x64 .f32) (x1 : Vec F S64x128 .f32) (x2 : Vec F S1x128 .f32) (x3 : Vec F S128x64 .f32) (x4 : Vec F S1x64 .f32) (x5 : Vec F S2000x64 .f32) (x6 : Vec F S2000x64 .f32) (xs0 : Vec F S1024x64 .bf16) (xs1 : Vec F S1024x128 .f32) :
    sout0_C_1 c i arg1 harg1 arg2 harg2 arg3 harg3 arg4 harg4 arg5 harg5 arg6 harg6 arg7 harg7 arg8 harg8 arg9 harg9 arg10 harg10 hc0 hc1 x0 x1 x2 x3 x4 x5 x6 xs0 xs1 = k0_pay3 x5 xs0 x6 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, View.ld_unit_zero (S := S1024x64) hz, View.ld_unit_zero (S := S64x128) hz, View.ld_unit_zero (S := S1x128) hz, View.ld_unit_zero (S := S128x64) hz, View.ld_unit_zero (S := S1x64) hz, View.ld_unit_zero (S := S2000x64) hz, View.ld_unit_zero (S := S1024x128) hz]

/-- Case C leaves in the output's staging buffer the quotient of the two column halves of the updated accumulator:
    each half is read back, through its rectangle, from the whole-buffer store made just before. -/
theorem out0_C_7_eq (c : Dev nD) (i : grid0.Coords) (arg1 : Memref sig .tc .vmem S1024x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S2000x64 .f32) (harg6 : arg6.IsWhole) (arg7 : Memref sig .tc .vmem S2000x64 .f32) (harg7 : arg7.IsWhole) (arg8 : Memref sig .tc .vmem S1024x64 .f32) (harg8 : arg8.IsWhole) (arg9 : Memref sig .tc .vmem S1024x64 .bf16) (harg9 : arg9.IsWhole) (arg10 : Memref sig .tc .vmem S1024x128 .f32) (harg10 : arg10.IsWhole) (hc0 : ¬cond0_0 i) (hc1 : cond0_1 i)
    (x0 : Vec F S1024x64 .f32) (x1 : Vec F S64x128 .f32) (x2 : Vec F S1x128 .f32) (x3 : Vec F S128x64 .f32) (x4 : Vec F S1x64 .f32) (x5 : Vec F S2000x64 .f32) (x6 : Vec F S2000x64 .f32) (xs0 : Vec F S1024x64 .bf16) (xs1 : Vec F S1024x128 .f32) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0 xs1
      = k0_pay4 (loHalf (k0_pay3 x5 xs0 x6 xs1)) (hiHalf (k0_pay3 x5 xs0 x6 xs1)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0 xs1)]
  unfold kernelRun0_C
  dsimp only
  sl_unfold_words
  rw [View.canon_unit_zero hz]
  simp only [View.readCov_eq_canon', View.canon_unit_zero (S := S1024x128) hz,
    View.readAt_eq_ld, harg1.read_unread, harg2.read_unread, harg3.read_unread, harg4.read_unread, harg5.read_unread, harg6.read_unread, harg7.read_unread, harg9.read_unread, harg10.read_unread, View.ld_unit_zero (S := S1024x64) hz, View.ld_unit_zero (S := S64x128) hz, View.ld_unit_zero (S := S1x128) hz, View.ld_unit_zero (S := S128x64) hz, View.ld_unit_zero (S := S1x64) hz, View.ld_unit_zero (S := S2000x64) hz, View.ld_unit_zero (S := S1024x128) hz]
  rfl

end Cert.Attn.Pieces
-- ==== Proof.Dots.lean ====
/-
  The kernel's four matrix products, each read at explicit coordinates as a plain finite sum.

  At the exact values a matrix product into a zero accumulator is, at (row, column), the sum over the contracted
  coordinate of the products of the two operands' entries.  The contraction index of a product is a one-axis
  multi-index; it is re-indexed here by the plain coordinate.  Three of the products contract the left operand's
  columns with the right operand's rows; the product of the projected query with a block of keys contracts columns
  with COLUMNS (the block of keys enters untransposed), so its right operand is read at (slot, feature).
-/
import proofs.«182132_g32512902431185_cont_8to1_b_648_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Attn.Dots

open Cert.KernelIdeal Cert.KernelIdeal.Gen Idealize.ShloMosaic Idealize.ShloMosaic.TcCoe Idealize.ShloMosaic.ValueIdx

/-! ## query · W1 : [1024, 64] × [64, 128] -/

theorem lhs1_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lhs1_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem rhs1_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem rhs1_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- Row b of the left operand against column k of the right one. -/
theorem matmul1_apply {φ₁ φ₂ : FTy} (l : FVec Ideal S1024x64 φ₁) (r : FVec Ideal S64x128 φ₂) (b : Fin 1024) (k : Fin 128) :
    matmul dot_S1024x64_S64x128_S1024x128_1_0_0_1_n_n none l r (constant S1024x128 .f32 0x00000000#32) (ix2 b k)
      = ∑ d : Fin 64, l (ix2 b d) * r (ix2 d k) := by
  simp only [matmul]
  rw [Ideal.matmul_constant_zero_apply, ← Equiv.sum_comp (contrEquiv1 dot_S1024x64_S64x128_S1024x128_1_0_0_1_n_n 64 rfl rfl).symm]
  refine Finset.sum_congr rfl fun d _ => ?_
  have hk := contrEquiv1_symm_val dot_S1024x64_S64x128_S1024x128_1_0_0_1_n_n 64 rfl rfl d
  have el : dot_S1024x64_S64x128_S1024x128_1_0_0_1_n_n.lhsIdx (ix2 b k) ((contrEquiv1 dot_S1024x64_S64x128_S1024x128_1_0_0_1_n_n 64 rfl rfl).symm d) = ix2 b d := funext fun a => Fin.ext (by
    match a with
    | ⟨0, _⟩ => exact lhs1_0 _ _
    | ⟨1, _⟩ => exact (lhs1_1 _ _).trans hk)
  have er : dot_S1024x64_S64x128_S1024x128_1_0_0_1_n_n.rhsIdx (ix2 b k) ((contrEquiv1 dot_S1024x64_S64x128_S1024x128_1_0_0_1_n_n 64 rfl rfl).symm d) = ix2 d k := funext fun a => Fin.ext (by
    match a with
    | ⟨0, _⟩ => exact (rhs1_0 _ _).trans hk
    | ⟨1, _⟩ => exact rhs1_1 _ _)
  rw [el, er]

/-! ## hidden · W2 : [1024, 128] × [128, 64] -/

theorem lhs2_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs2_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs2_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs2_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- Row b of the left operand against column e of the right one. -/
theorem matmul2_apply {φ₁ φ₂ : FTy} (l : FVec Ideal S1024x128 φ₁) (r : FVec Ideal S128x64 φ₂) (b : Fin 1024) (e : Fin 64) :
    matmul dot_S1024x128_S128x64_S1024x64_1_0_0_1_n_n none l r (constant S1024x64 .f32 0x00000000#32) (ix2 b e)
      = ∑ k : Fin 128, l (ix2 b k) * r (ix2 k e) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 b e) ((contrEquiv1 dot_S1024x128_S128x64_S1024x64_1_0_0_1_n_n 128 rfl rfl).symm k) = ix2 b k := funext fun a => Fin.ext (by
    match a with
    | ⟨0, _⟩ => exact lhs2_0 _ _
    | ⟨1, _⟩ => exact (lhs2_1 _ _).trans hk)
  have er : dot_S1024x128_S128x64_S1024x64_1_0_0_1_n_n.rhsIdx (ix2 b e) ((contrEquiv1 dot_S1024x128_S128x64_S1024x64_1_0_0_1_n_n 128 rfl rfl).symm k) = ix2 k e := funext fun a => Fin.ext (by
    match a with
    | ⟨0, _⟩ => exact (rhs2_0 _ _).trans hk
    | ⟨1, _⟩ => exact rhs2_1 _ _)
  rw [el, er]

/-! ## q · (block of keys)ᵀ : [1024, 64] × [2000, 64], contracting columns with columns -/

theorem lhs3_0 (i : S1024x2000.Idx) (q : dot_S1024x64_S2000x64_S1024x2000_1_1_0_0_n_n.contr.Idx) :
    (dot_S1024x64_S2000x64_S1024x2000_1_1_0_0_n_n.lhsIdx i q 0).val = (i 0).val := by
  unfold DotDims.lhsIdx
  rw [dif_neg (show ¬(0 : Fin S1024x64.rank) ∈ dot_S1024x64_S2000x64_S1024x2000_1_1_0_0_n_n.lhsBatch by decide), dif_pos (show (0 : Fin S1024x64.rank) ∈ dot_S1024x64_S2000x64_S1024x2000_1_1_0_0_n_n.lhsNonContracting by decide)]
  rfl
theorem lhs3_1 (i : S1024x2000.Idx) (q : dot_S1024x64_S2000x64_S1024x2000_1_1_0_0_n_n.contr.Idx) :
    (dot_S1024x64_S2000x64_S1024x2000_1_1_0_0_n_n.lhsIdx i q 1).val = (q ⟨0, by decide⟩).val :=
  dot_S1024x64_S2000x64_S1024x2000_1_1_0_0_n_n.lhsIdx_val_of_single rfl i q
theorem rhs3_0 (i : S1024x2000.Idx) (q : dot_S1024x64_S2000x64_S1024x2000_1_1_0_0_n_n.contr.Idx) :
    (dot_S1024x64_S2000x64_S1024x2000_1_1_0_0_n_n.rhsIdx i q 0).val = (i 1).val := by
  unfold DotDims.rhsIdx
  rw [dif_neg (show ¬(0 : Fin S2000x64.rank) ∈ dot_S1024x64_S2000x64_S1024x2000_1_1_0_0_n_n.rhsBatch by decide), dif_pos (show (0 : Fin S2000x64.rank) ∈ dot_S1024x64_S2000x64_S1024x2000_1_1_0_0_n_n.rhsNonContracting by decide)]
  rfl
theorem rhs3_1 (i : S1024x2000.Idx) (q : dot_S1024x64_S2000x64_S1024x2000_1_1_0_0_n_n.contr.Idx) :
    (dot_S1024x64_S2000x64_S1024x2000_1_1_0_0_n_n.rhsIdx i q 1).val = (q ⟨0, by decide⟩).val :=
  dot_S1024x64_S2000x64_S1024x2000_1_1_0_0_n_n.rhsIdx_val_of_single rfl i q

/-- Row b of the left operand against ROW r of the right one. -/
theorem matmul3_apply {φ₁ φ₂ : FTy} (l : FVec Ideal S1024x64 φ₁) (r : FVec Ideal S2000x64 φ₂) (b : Fin 1024) (s : Fin 2000) :
    matmul dot_S1024x64_S2000x64_S1024x2000_1_1_0_0_n_n none l r (constant S1024x2000 .f32 0x00000000#32) (ix2 b s)
      = ∑ e : Fin 64, l (ix2 b e) * r (ix2 s e) := by
  simp only [matmul]
  rw [Ideal.matmul_constant_zero_apply, ← Equiv.sum_comp (contrEquiv1 dot_S1024x64_S2000x64_S1024x2000_1_1_0_0_n_n 64 rfl rfl).symm]
  refine Finset.sum_congr rfl fun e _ => ?_
  have hk := contrEquiv1_symm_val dot_S1024x64_S2000x64_S1024x2000_1_1_0_0_n_n 64 rfl rfl e
  have el : dot_S1024x64_S2000x64_S1024x2000_1_1_0_0_n_n.lhsIdx (ix2 b s) ((contrEquiv1 dot_S1024x64_S2000x64_S1024x2000_1_1_0_0_n_n 64 rfl rfl).symm e) = ix2 b e := funext fun a => Fin.ext (by
    match a with
    | ⟨0, _⟩ => exact lhs3_0 _ _
    | ⟨1, _⟩ => exact (lhs3_1 _ _).trans hk)
  have er : dot_S1024x64_S2000x64_S1024x2000_1_1_0_0_n_n.rhsIdx (ix2 b s) ((contrEquiv1 dot_S1024x64_S2000x64_S1024x2000_1_1_0_0_n_n 64 rfl rfl).symm e) = ix2 s e := funext fun a => Fin.ext (by
    match a with
    | ⟨0, _⟩ => exact rhs3_0 _ _
    | ⟨1, _⟩ => exact (rhs3_1 _ _).trans hk)
  rw [el, er]

/-! ## weights · [values | 1] : [1024, 2000] × [2000, 128] -/

theorem lhs4_0 (i : S1024x128.Idx) (q : dot_S1024x2000_S2000x128_S1024x128_1_0_0_1_n_n.contr.Idx) :
    (dot_S1024x2000_S2000x128_S1024x128_1_0_0_1_n_n.lhsIdx i q 0).val = (i 0).val := by
  unfold DotDims.lhsIdx
  rw [dif_neg (show ¬(0 : Fin S1024x2000.rank) ∈ dot_S1024x2000_S2000x128_S1024x128_1_0_0_1_n_n.lhsBatch by decide), dif_pos (show (0 : Fin S1024x2000.rank) ∈ dot_S1024x2000_S2000x128_S1024x128_1_0_0_1_n_n.lhsNonContracting by decide)]
  rfl
theorem lhs4_1 (i : S1024x128.Idx) (q : dot_S1024x2000_S2000x128_S1024x128_1_0_0_1_n_n.contr.Idx) :
    (dot_S1024x2000_S2000x128_S1024x128_1_0_0_1_n_n.lhsIdx i q 1).val = (q ⟨0, by decide⟩).val :=
  dot_S1024x2000_S2000x128_S1024x128_1_0_0_1_n_n.lhsIdx_val_of_single rfl i q
theorem rhs4_0 (i : S1024x128.Idx) (q : dot_S1024x2000_S2000x128_S1024x128_1_0_0_1_n_n.contr.Idx) :
    (dot_S1024x2000_S2000x128_S1024x128_1_0_0_1_n_n.rhsIdx i q 0).val = (q ⟨0, by decide⟩).val :=
  dot_S1024x2000_S2000x128_S1024x128_1_0_0_1_n_n.rhsIdx_val_of_single rfl i q
theorem rhs4_1 (i : S1024x128.Idx) (q : dot_S1024x2000_S2000x128_S1024x128_1_0_0_1_n_n.contr.Idx) :
    (dot_S1024x2000_S2000x128_S1024x128_1_0_0_1_n_n.rhsIdx i q 1).val = (i 1).val := by
  unfold DotDims.rhsIdx
  rw [dif_neg (show ¬(1 : Fin S2000x128.rank) ∈ dot_S1024x2000_S2000x128_S1024x128_1_0_0_1_n_n.rhsBatch by decide), dif_pos (show (1 : Fin S2000x128.rank) ∈ dot_S1024x2000_S2000x128_S1024x128_1_0_0_1_n_n.rhsNonContracting by decide)]
  rfl

/-- Row b of the left operand against column c of the right one. -/
theorem matmul4_apply {φ₁ φ₂ : FTy} (l : FVec Ideal S1024x2000 φ₁) (r : FVec Ideal S2000x128 φ₂) (b : Fin 1024) (c : Fin 128) :
    matmul dot_S1024x2000_S2000x128_S1024x128_1_0_0_1_n_n none l r (constant S1024x128 .f32 0x00000000#32) (ix2 b c)
      = ∑ s : Fin 2000, l (ix2 b s) * r (ix2 s c) := by
  simp only [matmul]
  rw [Ideal.matmul_constant_zero_apply, ← Equiv.sum_comp (contrEquiv1 dot_S1024x2000_S2000x128_S1024x128_1_0_0_1_n_n 2000 rfl rfl).symm]
  refine Finset.sum_congr rfl fun s _ => ?_
  have hk := contrEquiv1_symm_val dot_S1024x2000_S2000x128_S1024x128_1_0_0_1_n_n 2000 rfl rfl s
  have el : dot_S1024x2000_S2000x128_S1024x128_1_0_0_1_n_n.lhsIdx (ix2 b c) ((contrEquiv1 dot_S1024x2000_S2000x128_S1024x128_1_0_0_1_n_n 2000 rfl rfl).symm s) = ix2 b s := funext fun a => Fin.ext (by
    match a with
    | ⟨0, _⟩ => exact lhs4_0 _ _
    | ⟨1, _⟩ => exact (lhs4_1 _ _).trans hk)
  have er : dot_S1024x2000_S2000x128_S1024x128_1_0_0_1_n_n.rhsIdx (ix2 b c) ((contrEquiv1 dot_S1024x2000_S2000x128_S1024x128_1_0_0_1_n_n 2000 rfl rfl).symm s) = ix2 s c := funext fun a => Fin.ext (by
    match a with
    | ⟨0, _⟩ => exact (rhs4_0 _ _).trans hk
    | ⟨1, _⟩ => exact rhs4_1 _ _)
  rw [el, er]

end Cert.Attn.Dots

end
-- ==== Proof.LibSoftmax.lean ====
/-
  The algebra behind streaming softmax attention, over the extended reals with real-valued data.

  For a row of logits l and a column of values v over a finite, nonempty set of slots, and ANY real shift M,
      sum_s (exp (l s - M) / sum_s' exp (l s' - M)) * v s  =  (sum_s exp (l s) * v s) / (sum_s exp (l s)) :
  the factor exp (-M) is common to numerator and denominator and cancels, and the quotient by the (positive) total
  comes out of the sum.  The left side is the softmax with the row maximum subtracted; the right side is the form a
  streaming kernel accumulates, with no subtraction at all.  Every quantity must be a real number for this: on the
  extended reals distributivity and cancellation fail at the infinities.

  Also here: what it means for an extended real to be a real number and how that passes through sums, products and
  maxima; and a sum over m * n slots regrouped as m consecutive blocks of n.
-/
import Idealize.ShloMosaic.PureOps.Ideal

noncomputable section

namespace Cert.Attn

open Idealize.ShloMosaic

/-! ## Extended reals that are real numbers -/

/-- The extended real x is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

theorem IsReal.exp {x : EReal} (hx : IsReal x) : IsReal (Ideal.exp x) := by
  obtain ⟨a, rfl⟩ := hx; exact ⟨Real.exp a, rfl⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum, from minus infinity, of real numbers over a nonempty finite set is a real number. -/
theorem IsReal.fold_max {ι : Type*} (s : Finset ι) (hs : s.Nonempty) (f : ι → EReal) (hf : ∀ i ∈ s, IsReal (f i)) :
    IsReal (s.fold Max.max (⊥ : EReal) f) := by
  classical
  induction hs using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih fun i hi => hf i (Finset.mem_cons.2 (Or.inr hi)))

/-- Dividing by one changes nothing. -/
theorem div_one' (x : EReal) : Ideal.div x 1 = x := by
  have h := Ideal.div_coe (y := 1) one_ne_zero x
  rw [EReal.coe_one] at h
  rw [h]; norm_num

/-! ## The law -/

/-- The real identity: a common factor exp (-M) cancels, and the quotient by the total comes out of the sum. -/
theorem softmax_real {ι : Type*} [Fintype ι] [Nonempty ι] (l v : ι → ℝ) (M : ℝ) :
    ∑ s, Real.exp (l s - M) * (1 / ∑ s', Real.exp (l s' - M)) * v s
      = (∑ s, Real.exp (l s) * v s) * (1 / ∑ s, Real.exp (l s)) := by
  have hpos : 0 < ∑ s, Real.exp (l s) := Finset.sum_pos (fun s _ => Real.exp_pos _) Finset.univ_nonempty
  have hM : ∀ s, Real.exp (l s - M) = Real.exp (l s) * Real.exp (-M) := fun s => by
    rw [← Real.exp_add]; ring_nf
  have hZ : ∑ s', Real.exp (l s' - M) = (∑ s', Real.exp (l s')) * Real.exp (-M) := by
    rw [Finset.sum_mul]; exact Finset.sum_congr rfl fun s _ => hM s
  rw [Finset.sum_mul]
  refine Finset.sum_congr rfl fun s _ => ?_
  rw [hZ, hM s]
  have he : Real.exp (-M) ≠ 0 := (Real.exp_pos _).ne'
  have hp : (∑ s, Real.exp (l s)) ≠ 0 := hpos.ne'
  field_simp

/-- The law on the extended reals, for real-valued logits l, values v and shift M: the shifted, normalised weights
    (their total taken from zero) applied to the values give the quotient of the two unshifted sums. -/
theorem softmax_ereal {ι : Type*} [Fintype ι] [Nonempty ι] (l v : ι → EReal) (M : EReal)
    (hl : ∀ s, IsReal (l s)) (hv : ∀ s, IsReal (v s)) (hM : IsReal M) :
    ∑ s, Ideal.div (Ideal.exp (l s - M)) (0 + ∑ s', Ideal.exp (l s' - M)) * v s
      = Ideal.div (∑ s, Ideal.exp (l s) * v s) (∑ s, Ideal.exp (l s) * 1) := by
  classical
  choose lr hlr using hl
  choose vr hvr using hv
  obtain ⟨Mr, rfl⟩ := hM
  have hZpos : 0 < ∑ s', Real.exp (lr s' - Mr) := Finset.sum_pos (fun s _ => Real.exp_pos _) Finset.univ_nonempty
  have hDpos : 0 < ∑ s', Real.exp (lr s') := Finset.sum_pos (fun s _ => Real.exp_pos _) Finset.univ_nonempty
  have hE : ∀ s, Ideal.exp (l s - (Mr : EReal)) = ((Real.exp (lr s - Mr) : ℝ) : EReal) := fun s => by
    rw [hlr s, ← EReal.coe_sub]; rfl
  have hE0 : ∀ s, Ideal.exp (l s) = ((Real.exp (lr s) : ℝ) : EReal) := fun s => by rw [hlr s]; rfl
  have hZ : (0 : EReal) + ∑ s', Ideal.exp (l s' - (Mr : EReal)) = ((∑ s', Real.exp (lr s' - Mr) : ℝ) : EReal) := by
    rw [zero_add, coe_sum]; exact Finset.sum_congr rfl fun s _ => hE s
  have hN : ∑ s, Ideal.exp (l s) * v s = ((∑ s, Real.exp (lr s) * vr s : ℝ) : EReal) := by
    rw [coe_sum]; exact Finset.sum_congr rfl fun s _ => by rw [hE0 s, hvr s, EReal.coe_mul]
  have hD : ∑ s, Ideal.exp (l s) * 1 = ((∑ s, Real.exp (lr s) : ℝ) : EReal) := by
    rw [coe_sum]; exact Finset.sum_congr rfl fun s _ => by rw [hE0 s, mul_one]
  rw [hZ, hN, hD, Ideal.div_coe hDpos.ne', ← EReal.coe_mul, ← softmax_real lr vr Mr,
    coe_sum Finset.univ fun s => Real.exp (lr s - Mr) * (1 / ∑ s', Real.exp (lr s' - Mr)) * vr s]
  refine Finset.sum_congr rfl fun s _ => ?_
  rw [hE s, Ideal.div_coe hZpos.ne', hvr s, ← EReal.coe_mul, ← EReal.coe_mul]

end Cert.Attn

end
-- ==== Proof.Spec.lean ====
/-
  What the attention read computes, as functions of the seven argument arrays over literal shapes.

  A query row b goes through a two-layer perceptron: hid b k = max (sum_d query[b,d] W1[d,k] + b1[k]) 0 and
  qv b e = sum_k hid b k W2[k,e] + b2[e].  Its logit against memory slot s is logit b s = sum_e qv b e keys[s,e].
  The result at (b, j) is the softmax-weighted average of column j of the values.

  Two spellings of that average are stated here.  streamOut is the quotient of two plain sums over the slots,
  num b j = sum_s exp (logit b s) values[s,j] over den b = sum_s exp (logit b s) * 1 : what an accumulator that adds
  one block of slots at a time ends with.  shiftedOut first divides the logits by one, subtracts the row's running
  maximum (taken from minus infinity), normalises the exponentials by their sum (taken from zero), and only then
  weights the values.  When every array entry is a real number the two agree (shiftedOut_eq_streamOut).
-/
import proofs.«182132_g32512902431185_cont_8to1_b_648_2_alg».proof.Proof.LibSoftmax
import Idealize.ShloMosaic.Lib.ValueIdx

noncomputable section

namespace Cert.Attn

open Idealize.ShloMosaic Idealize.ShloMosaic.ValueIdx

/-- An array all of whose entries are real numbers. -/
def AllReal {s : Shape} (x : s.Idx → EReal) : Prop := ∀ i, IsReal (x i)

section
variable (query : (⟨2, ![1024, 64]⟩ : Shape).Idx → EReal) (W1 : (⟨2, ![64, 128]⟩ : Shape).Idx → EReal)
  (b1 : (⟨1, ![128]⟩ : Shape).Idx → EReal) (W2 : (⟨2, ![128, 64]⟩ : Shape).Idx → EReal)
  (b2 : (⟨1, ![64]⟩ : Shape).Idx → EReal) (keys values : (⟨2, ![100000, 64]⟩ : Shape).Idx → EReal)

/-- The hidden layer: the first linear map, its bias, and the rectifier. -/
def hid (b : Fin 1024) (k : Fin 128) : EReal :=
  max ((∑ d : Fin 64, query (ix2 b d) * W1 (ix2 d k)) + b1 (ix1 k)) 0

/-- The projected query: the second linear map and its bias. -/
def qv (b : Fin 1024) (e : Fin 64) : EReal :=
  (∑ k : Fin 128, hid query W1 b1 b k * W2 (ix2 k e)) + b2 (ix1 e)

/-- The logit of query row b against memory slot s. -/
def logit (b : Fin 1024) (s : Fin 100000) : EReal :=
  ∑ e : Fin 64, qv query W1 b1 W2 b2 b e * keys (ix2 s e)

/-- The unnormalised weighted sum of column j of the values. -/
def num (b : Fin 1024) (j : Fin 64) : EReal :=
  ∑ s : Fin 100000, Ideal.exp (logit query W1 b1 W2 b2 keys b s) * values (ix2 s j)

/-- The total weight of row b (each slot's weight times one). -/
def den (b : Fin 1024) : EReal :=
  ∑ s : Fin 100000, Ideal.exp (logit query W1 b1 W2 b2 keys b s) * 1

/-- The streaming form of the result at row b, column j: one quotient of two sums over all slots. -/
def streamAt (b : Fin 1024) (j : Fin 64) : EReal :=
  Ideal.div (num query W1 b1 W2 b2 keys values b j) (den query W1 b1 W2 b2 keys b)

/-- The streaming form as a whole array. -/
def streamOut : (⟨2, ![1024, 64]⟩ : Shape).Idx → EReal := fun i =>
  streamAt query W1 b1 W2 b2 keys values (i 0) (i 1)

/-- The temperature-one logits. -/
def tlogit (b : Fin 1024) (s : Fin 100000) : EReal := Ideal.div (logit query W1 b1 W2 b2 keys b s) 1

/-- The row maximum as the reference takes it: the running maximum from minus infinity, joined once more with minus infinity. -/
def rowMax (b : Fin 1024) : EReal :=
  max ⊥ ((Finset.univ : Finset (Fin 100000)).fold max (⊥ : EReal) (fun s => tlogit query W1 b1 W2 b2 keys b s))

/-- The shifted exponential of slot s in row b. -/
def shiftedExp (b : Fin 1024) (s : Fin 100000) : EReal :=
  Ideal.exp (tlogit query W1 b1 W2 b2 keys b s - rowMax query W1 b1 W2 b2 keys b)

/-- The shifted-softmax form of the result at row b, column j. -/
def shiftedAt (b : Fin 1024) (j : Fin 64) : EReal :=
  ∑ s : Fin 100000,
    Ideal.div (shiftedExp query W1 b1 W2 b2 keys b s) (0 + ∑ s' : Fin 100000, shiftedExp query W1 b1 W2 b2 keys b s')
      * values (ix2 s j)

/-- The shifted-softmax form as a whole array. -/
def shiftedOut : (⟨2, ![1024, 64]⟩ : Shape).Idx → EReal := fun i =>
  shiftedAt query W1 b1 W2 b2 keys values (i 0) (i 1)

/-! ## Real-valued arguments give real-valued intermediates, and the two spellings agree -/

variable {query W1 b1 W2 b2 keys values}

theorem isReal_hid (hq : AllReal query) (hW1 : AllReal W1) (hb1 : AllReal b1) (b : Fin 1024) (k : Fin 128) :
    IsReal (hid query W1 b1 b k) :=
  ((IsReal.sum _ _ fun d _ => (hq _).mul (hW1 _)).add (hb1 _)).max IsReal.zero

theorem isReal_qv (hq : AllReal query) (hW1 : AllReal W1) (hb1 : AllReal b1) (hW2 : AllReal W2) (hb2 : AllReal b2)
    (b : Fin 1024) (e : Fin 64) : IsReal (qv query W1 b1 W2 b2 b e) :=
  (IsReal.sum _ _ fun k _ => (isReal_hid hq hW1 hb1 b k).mul (hW2 _)).add (hb2 _)

theorem isReal_logit (hq : AllReal query) (hW1 : AllReal W1) (hb1 : AllReal b1) (hW2 : AllReal W2) (hb2 : AllReal b2)
    (hk : AllReal keys) (b : Fin 1024) (s : Fin 100000) : IsReal (logit query W1 b1 W2 b2 keys b s) :=
  IsReal.sum _ _ fun e _ => (isReal_qv hq hW1 hb1 hW2 hb2 b e).mul (hk _)

/-- With every argument entry a real number, the shifted-softmax form is the streaming form, row by row and column by
    column: dividing the logits by one changes nothing, the row maximum is then a real number, and the law of shifted
    exponentials applies. -/
theorem shiftedAt_eq_streamAt (hq : AllReal query) (hW1 : AllReal W1) (hb1 : AllReal b1) (hW2 : AllReal W2)
    (hb2 : AllReal b2) (hk : AllReal keys) (hv : AllReal values) (b : Fin 1024) (j : Fin 64) :
    shiftedAt query W1 b1 W2 b2 keys values b j = streamAt query W1 b1 W2 b2 keys values b j := by
  haveI : Nonempty (Fin 100000) := ⟨⟨0, by norm_num⟩⟩
  have hlogit := isReal_logit hq hW1 hb1 hW2 hb2 hk
  have ht : ∀ b s, tlogit query W1 b1 W2 b2 keys b s = logit query W1 b1 W2 b2 keys b s := fun b s => div_one' _
  have hM : IsReal (rowMax query W1 b1 W2 b2 keys b) := by
    unfold rowMax
    rw [max_eq_right bot_le]
    exact IsReal.fold_max _ Finset.univ_nonempty _ fun s _ => by rw [ht]; exact hlogit _ _
  have key := softmax_ereal (fun s => tlogit query W1 b1 W2 b2 keys b s) (fun s => values (ix2 s j))
    (rowMax query W1 b1 W2 b2 keys b) (fun s => by rw [ht]; exact hlogit _ _) (fun s => hv _) hM
  refine key.trans ?_
  simp only [streamAt, num, den, ht]

theorem shiftedOut_eq_streamOut (hq : AllReal query) (hW1 : AllReal W1) (hb1 : AllReal b1) (hW2 : AllReal W2)
    (hb2 : AllReal b2) (hk : AllReal keys) (hv : AllReal values) :
    shiftedOut query W1 b1 W2 b2 keys values = streamOut query W1 b1 W2 b2 keys values :=
  funext fun i => shiftedAt_eq_streamAt hq hW1 hb1 hW2 hb2 hk hv (i 0) (i 1)

end

end Cert.Attn

end
-- ==== Proof.Consts.lean ====
/-
  The float literals the two programs spell, as the extended reals their bit patterns denote: one (in the 16-bit
  brain-float format the kernel pads the values with, and in the 32-bit format the reference divides the logits by)
  minus infinity (the value the reference's row maximum starts from) and plus infinity (the bound the precondition
  compares absolute values against).  Zero is the library's own lemma.
-/
import Idealize.ShloMosaic.PureOps.Ideal

noncomputable section

namespace Cert.Attn.Consts

open Idealize.ShloMosaic

/-- The bf16 pattern 0x3F80 denotes one. -/
theorem ofBits_one_bf16 : Ideal.ofBits .bf16 0x3F80#16 = 1 := by
  simp [Ideal.ofBits, Ideal.ieee, -EReal.coe_mul]; norm_num

/-- The f32 pattern 0x3F800000 denotes one. -/
theorem ofBits_one_f32 : Ideal.ofBits .f32 0x3F800000#32 = 1 := by
  simp [Ideal.ofBits, Ideal.ieee, -EReal.coe_mul]; norm_num

/-- The f32 pattern 0x7F800000 denotes plus infinity. -/
theorem ofBits_inf_f32 : Ideal.ofBits .f32 0x7F800000#32 = (⊤ : EReal) := by
  simp [Ideal.ofBits, Ideal.ieee]

/-- The f32 pattern 0xFF800000 denotes minus infinity. -/
theorem ofBits_neg_inf_f32 : Ideal.ofBits .f32 0xFF800000#32 = ⊥ := by
  simp [Ideal.ofBits, Ideal.ieee]

end Cert.Attn.Consts

end
-- ==== Proof.Payloads.lean ====
/-
  The kernel body's four stored values, read at explicit coordinates.

  The first store is the projected query: it is the specification's qv, once the two bias rows the body loads are
  known to be the bias vectors laid out as one row.  The second is zero.  The third is the accumulator update: at
  (b, c) it adds to the old accumulator the sum over the block's 2000 slots s of exp (sum_e q[b,e] keys[s,e]) times
  entry (s, c) of the block of values padded on the right with 64 columns of ones; so at a column c < 64 the addend
  weights the values' column c, and at a column 64 + j it is the plain sum of the weights (each times one).  The fourth
  is an entrywise quotient.
-/
import proofs.«182132_g32512902431185_cont_8to1_b_648_2_alg».proof.Proof.Dots
import proofs.«182132_g32512902431185_cont_8to1_b_648_2_alg».proof.Proof.Spec
import proofs.«182132_g32512902431185_cont_8to1_b_648_2_alg».proof.Proof.Consts

noncomputable section

namespace Cert.Attn.Pay

open Cert.KernelIdeal Cert.KernelIdeal.Gen Idealize.ShloMosaic Idealize.ShloMosaic.TcCoe Idealize.ShloMosaic.ValueIdx

/-- A row of 128 entries broadcast down 1024 rows, read at (b, k), is the row's entry k. -/
theorem bcastRow128_apply (x : FVec Ideal S1x128 .f32) (h : S1x128.Broadcasts S1024x128) (b : Fin 1024) (k : Fin 128) :
    broadcastTo S1024x128 x h (ix2 b k) = x (ix2 (0 : Fin 1) k) :=
  broadcastTo_apply x h (ix2 b k) (ix2 (0 : Fin 1) k) (fun a => match a with
    | ⟨0, _⟩ => by show (0 : ℕ) = if (1 : ℕ) = 1 then 0 else b.val; rw [if_pos rfl]
    | ⟨1, _⟩ => by show k.val = if (128 : ℕ) = 1 then 0 else k.val; rw [if_neg (by decide)])

/-- A row of 64 entries broadcast down 1024 rows, read at (b, e), is the row's entry e. -/
theorem bcastRow64_apply (x : FVec Ideal S1x64 .f32) (h : S1x64.Broadcasts S1024x64) (b : Fin 1024) (e : Fin 64) :
    broadcastTo S1024x64 x h (ix2 b e) = x (ix2 (0 : Fin 1) e) :=
  broadcastTo_apply x h (ix2 b e) (ix2 (0 : Fin 1) e) (fun a => match a with
    | ⟨0, _⟩ => by show (0 : ℕ) = if (1 : ℕ) = 1 then 0 else b.val; rw [if_pos rfl]
    | ⟨1, _⟩ => by show e.val = if (64 : ℕ) = 1 then 0 else e.val; rw [if_neg (by decide)])

section
variable (x0 : FVec Ideal S1024x64 .f32) (x1 : FVec Ideal S64x128 .f32) (x2 : FVec Ideal S1x128 .f32)
  (x3 : FVec Ideal S128x64 .f32) (x4 : FVec Ideal S1x64 .f32)
  (b1 : (⟨1, ![128]⟩ : Shape).Idx → EReal) (b2 : (⟨1, ![64]⟩ : Shape).Idx → EReal)

/-- The rectified first layer as the body spells it, at (b, k): the specification's hidden layer. -/
theorem hidden_apply (h1 : ∀ k : Fin 128, x2 (ix2 (0 : Fin 1) k) = b1 (ix1 k)) (hb : S1x128.Broadcasts S1024x128)
    (b : Fin 1024) (k : Fin 128) :
    maximumf (addf (matmul dot_S1024x64_S64x128_S1024x128_1_0_0_1_n_n none x0 x1 (constant S1024x128 .f32 0x00000000#32))
        (broadcastTo S1024x128 x2 hb)) (broadcast S1024x128 (Scalar.ofBits (F := Ideal) .f32 0x00000000#32)) (ix2 b k)
      = hid x0 x1 b1 b k := by
  rw [maximumf_apply, addf_apply, Dots.matmul1_apply, bcastRow128_apply, h1 k, broadcast_apply]
  show max _ (Ideal.ofBits .f32 0x00000000#32) = _
  rw [Ideal.ofBits_zero_f32]
  rfl

/-- The first stored value at (b, e): the specification's projected query. -/
theorem pay1_apply (h1 : ∀ k : Fin 128, x2 (ix2 (0 : Fin 1) k) = b1 (ix1 k))
    (h2 : ∀ e : Fin 64, x4 (ix2 (0 : Fin 1) e) = b2 (ix1 e)) (b : Fin 1024) (e : Fin 64) :
    k0_pay1 (F := Ideal) x0 x1 x2 x3 x4 (ix2 b e) = qv x0 x1 b1 x3 b2 b e := by
  unfold k0_pay1
  simp only [shapeCast_self]
  rw [truncf_apply, addf_apply, Dots.matmul2_apply, bcastRow64_apply, h2 e]
  unfold qv
  refine congrArg (· + b2 (ix1 e)) (Finset.sum_congr rfl fun k _ => ?_)
  rw [hidden_apply x0 x1 x2 b1 h1]

end

/-- The second stored value is zero everywhere. -/
theorem pay2_apply (b : Fin 1024) (c : Fin 128) : k0_pay2 (F := Ideal) (ix2 b c) = 0 := by
  unfold k0_pay2
  simp only [shapeCast_self]
  rw [broadcast_apply]
  show Ideal.ofBits .f32 0x00000000#32 = 0
  exact Ideal.ofBits_zero_f32

/-- A block of 64 columns padded on the right with another, read at a column j < 64: the left block's column j. -/
theorem padded_lo (v w : FVec Ideal S2000x64 .bf16) (h : Shape.Concatenates [S2000x64, S2000x64] S2000x128 1)
    (s : Fin 2000) (j : Fin 64) :
    concatenate S2000x128 1 [⟨S2000x64, v⟩, ⟨S2000x64, w⟩] h (ix2 s (⟨j.val, by omega⟩ : Fin 128)) = v (ix2 s j) :=
  concatenate_pair_apply_left (t := S2000x128) (s₁ := S2000x64) (s₂ := S2000x64) (1 : Fin 2) v w h
    (ix2 s (⟨j.val, by omega⟩ : Fin 128)) rfl (ix2 s j) (fun a => match a with | ⟨0, _⟩ => rfl | ⟨1, _⟩ => rfl)

/-- The same read at a column 64 + j: the right block's column j. -/
theorem padded_hi (v w : FVec Ideal S2000x64 .bf16) (h : Shape.Concatenates [S2000x64, S2000x64] S2000x128 1)
    (s : Fin 2000) (j : Fin 64) :
    concatenate S2000x128 1 [⟨S2000x64, v⟩, ⟨S2000x64, w⟩] h (ix2 s (⟨64 + j.val, by omega⟩ : Fin 128)) = w (ix2 s j) :=
  concatenate_pair_apply_right (t := S2000x128) (s₁ := S2000x64) (s₂ := S2000x64) (1 : Fin 2) v w h
    (ix2 s (⟨64 + j.val, by omega⟩ : Fin 128)) rfl rfl (ix2 s j)
    (fun a => match a with | ⟨0, _⟩ => fun _ => rfl | ⟨1, _⟩ => fun hne => absurd rfl hne)
    (by show j.val + 64 = 64 + j.val; omega)

section
variable (v3 : FVec Ideal S2000x64 .f32) (v5 : FVec Ideal S1024x64 .bf16) (v9 : FVec Ideal S2000x64 .f32)
  (v13 : FVec Ideal S1024x128 .f32)

/-- The block's weight of slot s for row b: the exponential of the row's logit against the block's key s. -/
def weight (b : Fin 1024) (s : Fin 2000) : EReal := Ideal.exp (∑ e : Fin 64, v5 (ix2 b e) * v3 (ix2 s e))

/-- The accumulator update at a low column j < 64: the old entry plus the block's weighted sum of the values' column j. -/
theorem pay3_lo (b : Fin 1024) (j : Fin 64) :
    k0_pay3 (F := Ideal) v3 v5 v9 v13 (ix2 b (⟨j.val, by omega⟩ : Fin 128))
      = v13 (ix2 b (⟨j.val, by omega⟩ : Fin 128)) + ∑ s : Fin 2000, weight v3 v5 b s * v9 (ix2 s j) := by
  unfold k0_pay3
  simp only [shapeCast_self]
  rw [addf_apply, Dots.matmul4_apply]
  refine congrArg (v13 _ + ·) (Finset.sum_congr rfl fun s _ => ?_)
  rw [truncf_apply]
  refine congrArg₂ (· * ·) ?_ ?_
  · exact congrArg Ideal.exp (Dots.matmul3_apply v5 _ b s)
  · rw [padded_lo]
    rfl

/-- The accumulator update at a high column 64 + j: the old entry plus the block's sum of weights, each times one. -/
theorem pay3_hi (b : Fin 1024) (j : Fin 64) :
    k0_pay3 (F := Ideal) v3 v5 v9 v13 (ix2 b (⟨64 + j.val, by omega⟩ : Fin 128))
      = v13 (ix2 b (⟨64 + j.val, by omega⟩ : Fin 128)) + ∑ s : Fin 2000, weight v3 v5 b s * 1 := by
  unfold k0_pay3
  simp only [shapeCast_self]
  rw [addf_apply, Dots.matmul4_apply]
  refine congrArg (v13 _ + ·) (Finset.sum_congr rfl fun s _ => ?_)
  rw [truncf_apply]
  refine congrArg₂ (· * ·) ?_ ?_
  · exact congrArg Ideal.exp (Dots.matmul3_apply v5 _ b s)
  · rw [padded_hi, broadcast_apply]
    show Ideal.ofBits .bf16 0x3F80#16 = 1
    exact Consts.ofBits_one_bf16

end

/-- The second stored value is the zero array. -/
theorem pay2_eq : k0_pay2 (F := Ideal) = fun _ => (0 : EReal) :=
  funext fun i => by rw [eq_ix2 i]; exact pay2_apply _ _

/-- The accumulator update is the old accumulator plus the update of a zero accumulator, entry by entry. -/
theorem pay3_acc (v3 : FVec Ideal S2000x64 .f32) (v5 : FVec Ideal S1024x64 .bf16) (v9 : FVec Ideal S2000x64 .f32)
    (acc : FVec Ideal S1024x128 .f32) (i : S1024x128.Idx) :
    k0_pay3 (F := Ideal) v3 v5 v9 acc i = acc i + k0_pay3 (F := Ideal) v3 v5 v9 (fun _ => (0 : EReal)) i := by
  unfold k0_pay3
  simp only [shapeCast_self]
  rw [addf_apply, addf_apply]
  show acc i + _ = acc i + ((0 : EReal) + _)
  rw [zero_add]

/-- The fourth stored value at (b, j): the quotient of the two operands' entries. -/
theorem pay4_apply (a c : FVec Ideal S1024x64 .f32) (b : Fin 1024) (j : Fin 64) :
    k0_pay4 (F := Ideal) a c (ix2 b j) = Ideal.div (a (ix2 b j)) (c (ix2 b j)) := by
  unfold k0_pay4
  rfl

end Cert.Attn.Pay

end
-- ==== Proof.Blocks.lean ====
/-
  The blocks the body loads, as entries of the argument arrays.

  Five operands are staged whole at every grid point: the query, the two weight matrices, and the two bias vectors,
  which the host first lays out as one row each (a reshape keeps the row-major order, so entry (0, k) of the row is
  entry k of the vector).  The keys and the values are staged 2000 rows at a time: at grid point t the block's row r
  is row 2000 t + r of the array.
-/
import proofs.«182132_g32512902431185_cont_8to1_b_648_2_alg».proof.Proof.Gen.KernelIdeal.Frame
import Idealize.ShloMosaic.Lib.ValueIdx
import Idealize.ShloMosaic.Lib.Pipeline.Value
import Idealize.ShloMosaic.Lib.StableHlo.Run

noncomputable section

namespace Cert.Attn.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The arguments and the blocks, at their literal types -/

abbrev argQ (c : Dev nD) : FVec Ideal S1024x64 .f32 := m ((c : Thread nD τ).loc main_arg0)
abbrev argW1 (c : Dev nD) : FVec Ideal S64x128 .f32 := m ((c : Thread nD τ).loc main_arg1)
abbrev argB1 (c : Dev nD) : FVec Ideal S128 .f32 := m ((c : Thread nD τ).loc main_arg2)
abbrev argW2 (c : Dev nD) : FVec Ideal S128x64 .f32 := m ((c : Thread nD τ).loc main_arg3)
abbrev argB2 (c : Dev nD) : FVec Ideal S64 .f32 := m ((c : Thread nD τ).loc main_arg4)
abbrev argK (c : Dev nD) : FVec Ideal S100000x64 .f32 := m ((c : Thread nD τ).loc main_arg5)
abbrev argV (c : Dev nD) : FVec Ideal S100000x64 .f32 := m ((c : Thread nD τ).loc main_arg6)

abbrev blkQ (c : Dev nD) (t : Fin cfg0.N) : FVec Ideal S1024x64 .f32 := iblk m c 0 t
abbrev blkW1 (c : Dev nD) (t : Fin cfg0.N) : FVec Ideal S64x128 .f32 := iblk m c 1 t
abbrev blkB1 (c : Dev nD) (t : Fin cfg0.N) : FVec Ideal S1x128 .f32 := iblk m c 2 t
abbrev blkW2 (c : Dev nD) (t : Fin cfg0.N) : FVec Ideal S128x64 .f32 := iblk m c 3 t
abbrev blkB2 (c : Dev nD) (t : Fin cfg0.N) : FVec Ideal S1x64 .f32 := iblk m c 4 t
abbrev blkK (c : Dev nD) (t : Fin cfg0.N) : FVec Ideal S2000x64 .f32 := iblk m c 5 t
abbrev blkV (c : Dev nD) (t : Fin cfg0.N) : FVec Ideal S2000x64 .f32 := iblk m c 6 t

/-- Row r of the block staged at grid point t, as a row of the whole array. -/
def slot (t : Fin cfg0.N) (r : Fin 2000) : Fin 100000 :=
  ⟨2000 * t.val + r.val, by have h := t.isLt; have hN : cfg0.N = 50 := N_0; have := r.isLt; omega⟩

/-! ## The operands staged whole -/

theorem blkQ_apply (c : Dev nD) (t : Fin cfg0.N) (b : Fin 1024) (d : Fin 64) :
    blkQ m c t (ix2 b d) = argQ m c (ix2 b d) := by
  have hi : win0_0.index t 0 = 0 ∧ win0_0.index t 1 = 0 :=
    (by decide +kernel : ∀ t : Fin grid0.N, win0_0.index t 0 = 0 ∧ win0_0.index t 1 = 0) t
  show iblk m c 0 t (ix2 b d) = _
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * b.val = b.val; rw [hi.1]; omega
  | ⟨1, _⟩ => show win0_0.index t 1 * 64 + 1 * d.val = d.val; rw [hi.2]; omega

theorem blkW1_apply (c : Dev nD) (t : Fin cfg0.N) (d : Fin 64) (k : Fin 128) :
    blkW1 m c t (ix2 d k) = argW1 m c (ix2 d k) := by
  have hi : win0_1.index t 0 = 0 ∧ win0_1.index t 1 = 0 :=
    (by decide +kernel : ∀ t : Fin grid0.N, win0_1.index t 0 = 0 ∧ win0_1.index t 1 = 0) t
  show iblk m c 1 t (ix2 d k) = _
  unfold iblk
  rw [View.read_apply]
  show V m c main_arg1 _ = m ((c : Thread nD τ).loc main_arg1) _
  rw [V_main_arg1]
  congr 1
  funext a
  apply Fin.ext
  match a with
  | ⟨0, _⟩ => show win0_1.index t 0 * 64 + 1 * d.val = d.val; rw [hi.1]; omega
  | ⟨1, _⟩ => show win0_1.index t 1 * 128 + 1 * k.val = k.val; rw [hi.2]; omega

theorem blkW2_apply (c : Dev nD) (t : Fin cfg0.N) (k : Fin 128) (e : Fin 64) :
    blkW2 m c t (ix2 k e) = argW2 m c (ix2 k e) := by
  have hi : win0_3.index t 0 = 0 ∧ win0_3.index t 1 = 0 :=
    (by decide +kernel : ∀ t : Fin grid0.N, win0_3.index t 0 = 0 ∧ win0_3.index t 1 = 0) t
  show iblk m c 3 t (ix2 k e) = _
  unfold iblk
  rw [View.read_apply]
  show V m c main_arg3 _ = m ((c : Thread nD τ).loc main_arg3) _
  rw [V_main_arg3]
  congr 1
  funext a
  apply Fin.ext
  match a with
  | ⟨0, _⟩ => show win0_3.index t 0 * 128 + 1 * k.val = k.val; rw [hi.1]; omega
  | ⟨1, _⟩ => show win0_3.index t 1 * 64 + 1 * e.val = e.val; rw [hi.2]; omega

theorem blkQ_eq (c : Dev nD) (t : Fin cfg0.N) : blkQ m c t = argQ m c :=
  funext fun i => by rw [eq_ix2 i]; exact blkQ_apply m c t _ _

theorem blkW1_eq (c : Dev nD) (t : Fin cfg0.N) : blkW1 m c t = argW1 m c :=
  funext fun i => by rw [eq_ix2 i]; exact blkW1_apply m c t _ _

theorem blkW2_eq (c : Dev nD) (t : Fin cfg0.N) : blkW2 m c t = argW2 m c :=
  funext fun i => by rw [eq_ix2 i]; exact blkW2_apply m c t _ _

/-! ## The two bias vectors, laid out as one row by the host -/

theorem blkB1_apply (c : Dev nD) (t : Fin cfg0.N) (k : Fin 128) :
    blkB1 m c t (ix2 (0 : Fin 1) k) = argB1 m c (ix1 k) := by
  have hi : win0_2.index t 0 = 0 ∧ win0_2.index t 1 = 0 :=
    (by decide +kernel : ∀ t : Fin grid0.N, win0_2.index t 0 = 0 ∧ win0_2.index t 1 = 0) t
  have e : (V m c main_v0 : S1x128.Idx → EReal)
      = shapeCast S1x128 (m ((c : Thread nD τ).loc main_arg2)) Facts₀.shapeCasts_S128_S1x128 := by
    dsimp only [V, hostOps0]; after_results; rfl
  show iblk m c 2 t (ix2 (0 : Fin 1) k) = _
  unfold iblk
  rw [View.read_apply]
  show V m c main_v0 _ = _
  rw [e]
  refine shapeCast_apply _ _ _ (ix1 k) ?_
  rw [Shape.rowMajor_val_one, Shape.rowMajor_val_two]
  show k.val = (win0_2.index t 0 * 1 + 1 * 0) * 128 + (win0_2.index t 1 * 128 + 1 * k.val)
  rw [hi.1, hi.2]; omega

theorem blkB2_apply (c : Dev nD) (t : Fin cfg0.N) (e : Fin 64) :
    blkB2 m c t (ix2 (0 : Fin 1) e) = argB2 m c (ix1 e) := by
  have hi : win0_4.index t 0 = 0 ∧ win0_4.index t 1 = 0 :=
    (by decide +kernel : ∀ t : Fin grid0.N, win0_4.index t 0 = 0 ∧ win0_4.index t 1 = 0) t
  have e' : (V m c main_v1 : S1x64.Idx → EReal)
      = shapeCast S1x64 (m ((c : Thread nD τ).loc main_arg4)) Facts₀.shapeCasts_S64_S1x64 := by
    dsimp only [V, hostOps0]; after_results; rfl
  show iblk m c 4 t (ix2 (0 : Fin 1) e) = _
  unfold iblk
  rw [View.read_apply]
  show V m c main_v1 _ = _
  rw [e']
  refine shapeCast_apply _ _ _ (ix1 e) ?_
  rw [Shape.rowMajor_val_one, Shape.rowMajor_val_two]
  show e.val = (win0_4.index t 0 * 1 + 1 * 0) * 64 + (win0_4.index t 1 * 64 + 1 * e.val)
  rw [hi.1, hi.2]; omega

/-! ## The keys and the values, 2000 rows at a time -/

theorem blkK_apply (c : Dev nD) (t : Fin cfg0.N) (r : Fin 2000) (e : Fin 64) :
    blkK m c t (ix2 r e) = argK m c (ix2 (slot t r) e) := by
  have hi : win0_5.index t 0 = t.val ∧ win0_5.index t 1 = 0 :=
    (by decide +kernel : ∀ t : Fin grid0.N, win0_5.index t 0 = t.val ∧ win0_5.index t 1 = 0) t
  show iblk m c 5 t (ix2 r e) = _
  unfold iblk
  rw [View.read_apply]
  show V m c main_arg5 _ = m ((c : Thread nD τ).loc main_arg5) _
  rw [V_main_arg5]
  congr 1
  funext a
  apply Fin.ext
  match a with
  | ⟨0, _⟩ => show win0_5.index t 0 * 2000 + 1 * r.val = 2000 * t.val + r.val; rw [hi.1]; omega
  | ⟨1, _⟩ => show win0_5.index t 1 * 64 + 1 * e.val = e.val; rw [hi.2]; omega

theorem blkV_apply (c : Dev nD) (t : Fin cfg0.N) (r : Fin 2000) (j : Fin 64) :
    blkV m c t (ix2 r j) = argV m c (ix2 (slot t r) j) := by
  have hi : win0_6.index t 0 = t.val ∧ win0_6.index t 1 = 0 :=
    (by decide +kernel : ∀ t : Fin grid0.N, win0_6.index t 0 = t.val ∧ win0_6.index t 1 = 0) t
  show iblk m c 6 t (ix2 r j) = _
  unfold iblk
  rw [View.read_apply]
  show V m c main_arg6 _ = m ((c : Thread nD τ).loc main_arg6) _
  rw [V_main_arg6]
  congr 1
  funext a
  apply Fin.ext
  match a with
  | ⟨0, _⟩ => show win0_6.index t 0 * 2000 + 1 * r.val = 2000 * t.val + r.val; rw [hi.1]; omega
  | ⟨1, _⟩ => show win0_6.index t 1 * 64 + 1 * j.val = j.val; rw [hi.2]; omega

end Cert.Attn.Blocks

end
-- ==== Proof.Regroup.lean ====
/-
  A sum over 100000 slots, taken 2000 at a time: summing first over the 2000 slots of each of 50 consecutive blocks
  and then over the blocks is summing over all the slots once.  Slot r of block t is slot 2000 t + r.
-/
import Mathlib.Data.Fintype.BigOperators
import Mathlib.Logic.Equiv.Fin.Basic

namespace Cert.Attn

theorem sum_blocks {M : Type*} [AddCommMonoid M] (f : Fin 100000 → M) :
    ∑ t : Fin 50, ∑ r : Fin 2000, f ⟨2000 * t.val + r.val, by have := t.isLt; have := r.isLt; omega⟩
      = ∑ s : Fin 100000, f s := by
  rw [← Fintype.sum_prod_type'
    (fun (t : Fin 50) (r : Fin 2000) => f ⟨2000 * t.val + r.val, by have := t.isLt; have := r.isLt; omega⟩)]
  exact Fintype.sum_equiv (finProdFinEquiv (m := 50) (n := 2000)) _ (fun s : Fin (50 * 2000) => f s)
    (fun x => congrArg f (Fin.ext (by show 2000 * x.1.val + x.2.val = x.2.val + 2000 * x.1.val; omega)))

end Cert.Attn
-- ==== Proof.Accum.lean ====
/-
  What the kernel's two carried buffers and its output hold, grid point by grid point.

  The first grid point stores the projected query into the first carried buffer; no later point stores into it, so
  it holds the projected query after every point.  The second carried buffer is an accumulator of 1024 rows by 128
  columns: the first point resets it to zero and every point, the first included, adds its block's update.  So after
  point n it holds the sum, over the points 0..n, of the update each point's block makes to a zero accumulator.  The
  last point (49) then stores into the output the quotient of the accumulator's column j by its column 64 + j.

  Column j of the total is the sum over all 100000 slots of exp (logit) times the values' column j, and column
  64 + j is the sum of exp (logit) times one: the 50 blocks of 2000 slots are all the slots, each once.  Hence the
  output is the streaming form of the specification.
-/
import proofs.«182132_g32512902431185_cont_8to1_b_648_2_alg».proof.Proof.Gen.KernelIdeal.Value
import proofs.«182132_g32512902431185_cont_8to1_b_648_2_alg».proof.Proof.Pieces
import proofs.«182132_g32512902431185_cont_8to1_b_648_2_alg».proof.Proof.Payloads
import proofs.«182132_g32512902431185_cont_8to1_b_648_2_alg».proof.Proof.Blocks
import proofs.«182132_g32512902431185_cont_8to1_b_648_2_alg».proof.Proof.Regroup

noncomputable section

namespace Cert.Attn.Accum

open Cert.KernelIdeal Cert.KernelIdeal.Gen Cert.KernelIdeal.Value
open Idealize.ShloMosaic Idealize.ShloMosaic.TcCoe Idealize.ShloMosaic.ValueIdx Idealize.SL.Sem
open Cert.Attn.Blocks Cert.Attn.Pieces Cert.Attn.Pay

variable (m : (ℓ : Loc nD τ sig) → Buf (Elt Ideal) ℓ)

/-- The first grid point. -/
abbrev t0 : Fin cfg0.N := ⟨0, by rw [show cfg0.N = 50 from N_0]; norm_num⟩

/-- The last grid point. -/
abbrev tLast : Fin cfg0.N := ⟨49, by rw [show cfg0.N = 50 from N_0]; norm_num⟩

/-! ## The first carried buffer: the projected query -/

/-- The projected query, as the first grid point stores it. -/
def qArr (c : Dev nD) : FVec Ideal S1024x64 .bf16 :=
  k0_pay1 (F := Ideal) (blkQ m c t0) (blkW1 m c t0) (blkB1 m c t0) (blkW2 m c t0) (blkB2 m c t0)

/-- It is the specification's projected query of the argument arrays. -/
theorem qArr_apply (c : Dev nD) (b : Fin 1024) (e : Fin 64) :
    qArr m c (ix2 b e) = qv (argQ m c) (argW1 m c) (argB1 m c) (argW2 m c) (argB2 m c) b e := by
  unfold qArr
  rw [pay1_apply (blkQ m c t0) (blkW1 m c t0) (blkB1 m c t0) (blkW2 m c t0) (blkB2 m c t0) (argB1 m c) (argB2 m c)
    (fun k => blkB1_apply m c t0 k) (fun e => blkB2_apply m c t0 e), blkQ_eq, blkW1_eq, blkW2_eq]

/-- After every grid point the first carried buffer holds the projected query. -/
theorem scr0_eq (c : Dev nD) : ∀ (n : ℕ) (hn : n < cfg0.N), (outsAt0 m c n hn).2.1 = qArr m c
  | 0, hn => by
    rw [outsAt0_A m c ⟨0, hn⟩ rfl (by norm_num)]
    dsimp only
    exact sout0_A_0_eq ..
  | n + 1, hn => by
    have hN : cfg0.N = 50 := N_0
    have h0 : ¬(⟨n + 1, hn⟩ : Fin cfg0.N).val % 50 = 0 := by dsimp only; omega
    by_cases h1 : (⟨n + 1, hn⟩ : Fin cfg0.N).val % 50 = 49
    · rw [outsAt0_C m c ⟨n + 1, hn⟩ h0 h1]
      dsimp only
      unfold sout0_C_0
      exact scr0_eq c n _
    · rw [outsAt0_B m c ⟨n + 1, hn⟩ h0 h1]
      dsimp only
      unfold sout0_B_0
      exact scr0_eq c n _

/-! ## The second carried buffer: the accumulator -/

/-- What grid point n adds to the accumulator: its block's update of a zero accumulator (nothing past the grid). -/
def addend (c : Dev nD) (n : ℕ) : S1024x128.Idx → EReal := fun i =>
  if h : n < cfg0.N then
    k0_pay3 (F := Ideal) (blkK m c ⟨n, h⟩) (qArr m c) (blkV m c ⟨n, h⟩) (fun _ => (0 : EReal)) i
  else 0

/-- After grid point n the accumulator holds the sum of the addends of the points 0..n. -/
theorem scr1_apply (c : Dev nD) : ∀ (n : ℕ) (hn : n < cfg0.N) (i : S1024x128.Idx),
    (outsAt0 m c n hn).2.2 i = ∑ s ∈ Finset.range (n + 1), addend m c s i
  | 0, hn, i => by
    rw [outsAt0_A m c ⟨0, hn⟩ rfl (by norm_num)]
    dsimp only
    rw [sout0_A_1_eq, pay3_acc, pay2_eq, Finset.sum_range_one]
    show (0 : EReal) + _ = _
    rw [zero_add]
    unfold addend
    rw [dif_pos hn]
    rfl
  | n + 1, hn, i => by
    have hN : cfg0.N = 50 := N_0
    have h0 : ¬(⟨n + 1, hn⟩ : Fin cfg0.N).val % 50 = 0 := by dsimp only; omega
    have hadd : addend m c (n + 1) i
        = k0_pay3 (F := Ideal) (blkK m c ⟨n + 1, hn⟩) (qArr m c) (blkV m c ⟨n + 1, hn⟩) (fun _ => (0 : EReal)) i := by
      unfold addend; rw [dif_pos hn]
    by_cases h1 : (⟨n + 1, hn⟩ : Fin cfg0.N).val % 50 = 49
    · rw [outsAt0_C m c ⟨n + 1, hn⟩ h0 h1]
      dsimp only
      rw [sout0_C_1_eq, pay3_acc, Finset.sum_range_succ, hadd, scr0_eq m c]
      exact congrArg (· + _) (scr1_apply c n _ i)
    · rw [outsAt0_B m c ⟨n + 1, hn⟩ h0 h1]
      dsimp only
      rw [sout0_B_1_eq, pay3_acc, Finset.sum_range_succ, hadd, scr0_eq m c]
      exact congrArg (· + _) (scr1_apply c n _ i)

/-! ## The addends, slot by slot -/

/-- Row b's logit against slot s, of the argument arrays of core c. -/
abbrev lg (c : Dev nD) (b : Fin 1024) (s : Fin 100000) : EReal :=
  logit (argQ m c) (argW1 m c) (argB1 m c) (argW2 m c) (argB2 m c) (argK m c) b s

/-- The block's weight of its slot r is the exponential of the logit against that slot of the whole array. -/
theorem weight_eq (c : Dev nD) (t : Fin cfg0.N) (b : Fin 1024) (r : Fin 2000) :
    weight (blkK m c t) (qArr m c) b r = Ideal.exp (lg m c b (slot t r)) := by
  unfold weight
  refine congrArg Ideal.exp (Finset.sum_congr rfl fun e _ => ?_)
  rw [qArr_apply, blkK_apply]

/-- At a column j < 64 the addend of point t weights the values' column j over the block's slots. -/
theorem addend_lo (c : Dev nD) (t : Fin cfg0.N) (b : Fin 1024) (j : Fin 64) :
    addend m c t.val (ix2 b (⟨j.val, by omega⟩ : Fin 128))
      = ∑ r : Fin 2000, Ideal.exp (lg m c b (slot t r)) * argV m c (ix2 (slot t r) j) := by
  unfold addend
  rw [dif_pos t.isLt, pay3_lo]
  show (0 : EReal) + _ = _
  rw [zero_add]
  refine Finset.sum_congr rfl fun r _ => ?_
  rw [weight_eq, blkV_apply]

/-- At a column 64 + j it is the sum of the block's weights, each times one. -/
theorem addend_hi (c : Dev nD) (t : Fin cfg0.N) (b : Fin 1024) (j : Fin 64) :
    addend m c t.val (ix2 b (⟨64 + j.val, by omega⟩ : Fin 128))
      = ∑ r : Fin 2000, Ideal.exp (lg m c b (slot t r)) * 1 := by
  unfold addend
  rw [dif_pos t.isLt, pay3_hi]
  show (0 : EReal) + _ = _
  rw [zero_add]
  refine Finset.sum_congr rfl fun r _ => ?_
  rw [weight_eq]

/-- Over all 50 points the low columns add up to the specification's numerator. -/
theorem total_lo (c : Dev nD) (b : Fin 1024) (j : Fin 64) :
    ∑ s ∈ Finset.range 50, addend m c s (ix2 b (⟨j.val, by omega⟩ : Fin 128))
      = num (argQ m c) (argW1 m c) (argB1 m c) (argW2 m c) (argB2 m c) (argK m c) (argV m c) b j := by
  rw [Finset.sum_range]
  unfold num
  rw [← sum_blocks fun s => Ideal.exp (lg m c b s) * argV m c (ix2 s j)]
  refine Finset.sum_congr rfl fun t _ => ?_
  have ht : t.val < cfg0.N := by rw [show cfg0.N = 50 from N_0]; exact t.isLt
  exact addend_lo m c ⟨t.val, ht⟩ b j

/-- And the high columns to its denominator. -/
theorem total_hi (c : Dev nD) (b : Fin 1024) (j : Fin 64) :
    ∑ s ∈ Finset.range 50, addend m c s (ix2 b (⟨64 + j.val, by omega⟩ : Fin 128))
      = den (argQ m c) (argW1 m c) (argB1 m c) (argW2 m c) (argB2 m c) (argK m c) b := by
  rw [Finset.sum_range]
  unfold den
  rw [← sum_blocks fun s => Ideal.exp (lg m c b s) * 1]
  refine Finset.sum_congr rfl fun t _ => ?_
  have ht : t.val < cfg0.N := by rw [show cfg0.N = 50 from N_0]; exact t.isLt
  exact addend_hi m c ⟨t.val, ht⟩ b j

/-! ## The output -/

/-- The last grid point stores the quotient of the two column halves of the accumulator it has just updated. -/
theorem out_last_eq (c : Dev nD) (h : 49 < cfg0.N) :
    (outsAt0 m c 49 h).1
      = k0_pay4 (F := Ideal) (loHalf ((outsAt0 m c 49 h).2.2)) (hiHalf ((outsAt0 m c 49 h).2.2)) := by
  have h0 : ¬(⟨49, h⟩ : Fin cfg0.N).val % 50 = 0 := by show ¬((49 : ℕ) % 50 = 0); decide
  have h1 : (⟨49, h⟩ : Fin cfg0.N).val % 50 = 49 := rfl
  rw [outsAt0_C m c ⟨49, h⟩ h0 h1]
  dsimp only
  rw [out0_C_7_eq, sout0_C_1_eq]

/-- So the output's staging buffer holds, after the last point, the streaming form of the specification. -/
theorem out_last_apply (c : Dev nD) (h : 49 < cfg0.N) (b : Fin 1024) (j : Fin 64) :
    (outsAt0 m c 49 h).1 (ix2 b j)
      = streamAt (argQ m c) (argW1 m c) (argB1 m c) (argW2 m c) (argB2 m c) (argK m c) (argV m c) b j := by
  rw [out_last_eq, pay4_apply, loHalf_apply, hiHalf_apply, scr1_apply, scr1_apply]
  show Ideal.div (∑ s ∈ Finset.range 50, _) (∑ s ∈ Finset.range 50, _) = _
  rw [total_lo, total_hi]
  rfl

end Cert.Attn.Accum

end
-- ==== Proof.KernelRun.lean ====
/-
  The idealized kernel's result array.

  The output's block is the whole 1024 x 64 array at every grid point, and it is written back at the last point
  only.  What that point writes back is the quotient of the accumulated numerators by the accumulated denominators,
  the streaming form of the specification; every index of the array lies in that one block; so the result array ends
  holding the streaming form, and the run leaves the seven arguments as they were.
-/
import proofs.«182132_g32512902431185_cont_8to1_b_648_2_alg».proof.Proof.Accum

noncomputable section

namespace Cert.Attn.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Attn.Blocks Cert.Attn.Accum

variable (m : (ℓ : Loc nD τ sig) → Buf (Elt Ideal) ℓ) (ρ : Dev nD → PrngReg)

/-- The streaming form of the specification, of core c's argument arrays, as contents of the result array. -/
def result (c : Dev nD) : Buf (Elt Ideal) ((c : Thread nD τ).loc main_v2) :=
  streamOut (argQ m c) (argW1 m c) (argB1 m c) (argW2 m c) (argB2 m c) (argK m c) (argV m c)

/-- After the last grid point the output's staging buffer holds it. -/
theorem out_last_fun (c : Dev nD) (h : 49 < cfg0.N) : (outsAt0 m c 49 h).1 = result m c :=
  funext fun i => by rw [eq_ix2 i]; exact out_last_apply m c h _ _

/-- The output's block sits at offset zero on both axes at every grid point. -/
theorem out_index (t : Fin cfg0.N) : win0_7.index t 0 = 0 ∧ win0_7.index t 1 = 0 :=
  (by decide +kernel : ∀ t : Fin grid0.N, win0_7.index t 0 = 0 ∧ win0_7.index t 1 = 0) t

/-- The one write-back writes the streaming form: the block read through zero offsets is the whole array. -/
theorem flushed_eq (c : Dev nD) (t : Fin cfg0.N) (hf : (cfg0.win 7).flush t = true) :
    (dats m 0 c).flushed 7 t = ((cfg0.win 7).blk t).view.read (Elt Ideal) (result m c) := by
  have hN : cfg0.N = 50 := N_0
  have h49 : t.val = 49 := by have := (flush0_7 t).mp hf; have := t.isLt; omega
  obtain rfl : t = tLast := Fin.ext h49
  rw [flushed7]
  show (cfg0.win 7).cut (grid0.coords tLast) ((outsAt0 m c 49 (tLast).isLt).1) = _
  rw [out_last_fun m c (tLast).isLt]
  have hz' : (fun a => win0_7.index tLast a * main_v2.ty.shape.size a) = fun _ => 0 := funext fun a => by
    match a with
    | ⟨0, _⟩ => show win0_7.index tLast 0 * 1024 = 0; rw [(out_index tLast).1]
    | ⟨1, _⟩ => show win0_7.index tLast 1 * 64 = 0; rw [(out_index tLast).2]
  exact (Memref.read_access_unit_zero (Elt Ideal) main_v2 hz' (fun a => by rw [congrFun hz' a]; simp) (result m c)).symm

/-- Every index of the result array lies in the block the last point writes back. -/
theorem covered (i : S1024x64.Idx) : i ∈ ((cfg0.win 7).blk tLast).view.set := by
  show i ∈ ((View.whole main_v2).slice (win0_7.rect tLast)).set
  rw [View.set_slice_whole, Rect.mem_set_unit]
  intro a
  have h0 : (i 0 : Nat) < 1024 := (i 0).isLt
  have h1 : (i 1 : Nat) < 64 := (i 1).isLt
  have hx : win0_7.xsize (grid0.coords tLast) 0 = 1024 ∧ win0_7.xsize (grid0.coords tLast) 1 = 64 :=
    (by decide +kernel : ∀ t : Fin grid0.N, win0_7.xsize (grid0.coords t) 0 = 1024 ∧ win0_7.xsize (grid0.coords t) 1 = 64) tLast
  match a with
  | ⟨0, _⟩ =>
    show win0_7.index tLast 0 * win0_7.size 0 ≤ (i 0 : Nat) ∧ (i 0 : Nat) < win0_7.index tLast 0 * win0_7.size 0 + win0_7.xsize (grid0.coords tLast) 0
    rw [(out_index tLast).1, hx.1]; omega
  | ⟨1, _⟩ =>
    show win0_7.index tLast 1 * win0_7.size 1 ≤ (i 1 : Nat) ∧ (i 1 : Nat) < win0_7.index tLast 1 * win0_7.size 1 + win0_7.xsize (grid0.coords tLast) 1
    rw [(out_index tLast).2, hx.2]; omega

/-- So the result array ends holding the streaming form. -/
theorem final (c : Dev nD) : (dats m 0 c).arrAt 7 cfg0.N = result m c :=
  (dats m 0 c).arrAt_eq_of_cover 7 (result m c) (flushed_eq m c) fun i =>
    ⟨tLast, (flush0_7 tLast).mpr rfl, covered i⟩

/-- The run, read: every weakly fair execution ends with the result array at the streaming form of the arguments,
    and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Attn.Kernel

end
-- ==== Proof.RefRead.lean ====
/-
  The idealized reference, read one operation at a time, is the shifted-softmax form of the specification.

  Every stage of the reference is read at an index with explicit coordinates: the hidden layer at (b, k), the
  projected query at (b, e), the logits and their quotient by one at (b, s), the row maximum at b (a running maximum
  from minus infinity over the slots, joined once more with minus infinity), the shifted exponentials at (b, s), their
  total at b (taken from zero), and the weighted sum of the values at (b, j).  The float literals 0.0, 1.0 and minus
  infinity denote 0, 1 and the bottom element (the library's lemma for zero, the certificate's own for the other two).
  No entry needs to be a real number for any of this.
-/
import proofs.«182132_g32512902431185_cont_8to1_b_648_2_alg».proof.Proof.Gen.ReferenceIdeal.Read
import proofs.«182132_g32512902431185_cont_8to1_b_648_2_alg».proof.Proof.Spec
import proofs.«182132_g32512902431185_cont_8to1_b_648_2_alg».proof.Proof.Consts
import Idealize.ShloMosaic.Lib.ValueIdx
import Idealize.ShloMosaic.PureOps.Ideal.Laws
import Idealize.ShloMosaic.PureOps.Reduce

noncomputable section

namespace Cert.Attn.RefRead

open Cert.ReferenceIdeal Cert.ReferenceIdeal.Gen Cert.ReferenceIdeal.Read Cert.Attn.Consts Idealize.ShloMosaic
  Idealize.ShloMosaic.ValueIdx Idealize.ShloMosaic.StableHlo

/-! ## Index equations

  The reference's layout operations and contractions read their operands at indices computed from the result's index.
  At a result index given by coordinates these are again indices given by coordinates. -/

theorem lidx_v0 (b : Fin 1024) (k : Fin 128) (d : Fin 64) : lidx_main_v0 (ix2 b k) d = ix2 b d :=
  funext fun a => Fin.ext (by match a with | ⟨0, _⟩ => rfl | ⟨1, _⟩ => rfl)

theorem ridx_v0 (b : Fin 1024) (k : Fin 128) (d : Fin 64) : ridx_main_v0 (ix2 b k) d = ix2 d k :=
  funext fun a => Fin.ext (by match a with | ⟨0, _⟩ => rfl | ⟨1, _⟩ => rfl)

theorem idx_v1_v2 (b : Fin 1024) (k : Fin 128) : idx_main_v1 (idx_main_v2 (ix2 b k)) = ix1 k :=
  funext fun a => Fin.ext (by match a with | ⟨0, _⟩ => rfl)

theorem lidx_v6 (b : Fin 1024) (e : Fin 64) (k : Fin 128) : lidx_main_v6 (ix2 b e) k = ix2 b k :=
  funext fun a => Fin.ext (by match a with | ⟨0, _⟩ => rfl | ⟨1, _⟩ => rfl)

theorem ridx_v6 (b : Fin 1024) (e : Fin 64) (k : Fin 128) : ridx_main_v6 (ix2 b e) k = ix2 k e :=
  funext fun a => Fin.ext (by match a with | ⟨0, _⟩ => rfl | ⟨1, _⟩ => rfl)

theorem idx_v7_v8 (b : Fin 1024) (e : Fin 64) : idx_main_v7 (idx_main_v8 (ix2 b e)) = ix1 e :=
  funext fun a => Fin.ext (by match a with | ⟨0, _⟩ => rfl)

theorem lidx_v11 (b : Fin 1024) (s : Fin 100000) (e : Fin 64) : lidx_main_v11 (ix2 b s) e = ix2 b e :=
  funext fun a => Fin.ext (by match a with | ⟨0, _⟩ => rfl | ⟨1, _⟩ => rfl)

theorem idx_v10_ridx_v11 (b : Fin 1024) (s : Fin 100000) (e : Fin 64) :
    idx_main_v10 (ridx_main_v11 (ix2 b s) e) = ix2 s e :=
  funext fun a => Fin.ext (by match a with | ⟨0, _⟩ => rfl | ⟨1, _⟩ => rfl)

theorem idx_v17_v18 (b : Fin 1024) (s : Fin 100000) : idx_main_v17 (idx_main_v18 (ix2 b s)) = ix1 b :=
  funext fun a => Fin.ext (by match a with | ⟨0, _⟩ => rfl)

theorem idx_v21 (b : Fin 1024) (s : Fin 100000) : idx_main_v21 (ix1 b) s = ix2 b s :=
  funext fun a => Fin.ext (by match a with | ⟨0, _⟩ => rfl | ⟨1, _⟩ => rfl)

theorem idx_v22_v23 (b : Fin 1024) (s : Fin 100000) : idx_main_v22 (idx_main_v23 (ix2 b s)) = ix1 b :=
  funext fun a => Fin.ext (by match a with | ⟨0, _⟩ => rfl)

theorem lidx_v25 (b : Fin 1024) (j : Fin 64) (s : Fin 100000) : lidx_main_v25 (ix2 b j) s = ix2 b s :=
  funext fun a => Fin.ext (by match a with | ⟨0, _⟩ => rfl | ⟨1, _⟩ => rfl)

theorem ridx_v25 (b : Fin 1024) (j : Fin 64) (s : Fin 100000) : ridx_main_v25 (ix2 b j) s = ix2 s j :=
  funext fun a => Fin.ext (by match a with | ⟨0, _⟩ => rfl | ⟨1, _⟩ => rfl)

section
variable (x0 : (⟨S1024x64, .f32⟩ : BufTy).Contents (Elt Ideal)) (x1 : (⟨S64x128, .f32⟩ : BufTy).Contents (Elt Ideal))
  (x2 : (⟨S128, .f32⟩ : BufTy).Contents (Elt Ideal)) (x3 : (⟨S128x64, .f32⟩ : BufTy).Contents (Elt Ideal))
  (x4 : (⟨S64, .f32⟩ : BufTy).Contents (Elt Ideal)) (x5 x6 : (⟨S100000x64, .f32⟩ : BufTy).Contents (Elt Ideal))

/-! ## The two-layer perceptron -/

/-- The hidden layer at (b, k): the first product, its bias, and the maximum with zero. -/
theorem hid_read (b : Fin 1024) (k : Fin 128) :
    val_main_v5 (F := Ideal) x0 x1 x2 (ix2 b k) = hid x0 x1 x2 b k := by
  rw [val_main_v5_apply, val_main_v3_apply, val_main_v0_apply, val_main_v2_apply, val_main_v1_apply,
    val_main_v4_apply, val_main_cst_apply]
  simp only [Ideal.maximumf_def, Ideal.addf_def, Ideal.ofBits_def, Ideal.ofBits_zero_f32, lidx_v0, ridx_v0, idx_v1_v2]
  rfl

/-- The projected query at (b, e): the second product over the hidden layer, and its bias. -/
theorem qv_read (b : Fin 1024) (e : Fin 64) :
    val_main_v9 (F := Ideal) x0 x1 x2 x3 x4 (ix2 b e) = qv x0 x1 x2 x3 x4 b e := by
  rw [val_main_v9_apply, val_main_v6_apply, val_main_v8_apply, val_main_v7_apply]
  simp only [Ideal.addf_def, lidx_v6, ridx_v6, idx_v7_v8, hid_read]
  rfl

/-! ## The logits -/

/-- The logit of row b against slot s: the contraction of the projected query with the transposed keys. -/
theorem logit_read (b : Fin 1024) (s : Fin 100000) :
    val_main_v11 (F := Ideal) x0 x1 x2 x3 x4 x5 (ix2 b s) = logit x0 x1 x2 x3 x4 x5 b s := by
  rw [val_main_v11_apply]
  simp only [val_main_v10_apply, lidx_v11, idx_v10_ridx_v11, qv_read]
  rfl

/-- The logit divided by the temperature one. -/
theorem tlogit_read (b : Fin 1024) (s : Fin 100000) :
    val_main_v13 (F := Ideal) x0 x1 x2 x3 x4 x5 (ix2 b s) = tlogit x0 x1 x2 x3 x4 x5 b s := by
  rw [val_main_v13_apply, val_main_v12_apply, val_main_cst_0_apply, logit_read]
  simp only [Ideal.hostDivf_def, Ideal.ofBits_def, ofBits_one_f32]
  rfl

/-! ## The softmax over the slots -/

/-- A row index with the slot coordinate put back on the reduced axis is the index (b, s). -/
theorem lift_row (h : S1024x100000.Reduces [1] S1024) (b : Fin 1024) (k : Fin (S1024x100000.size 1)) :
    h.lift (ix1 b) k = ix2 b (⟨k.val, k.isLt⟩ : Fin 100000) :=
  funext fun c => Fin.ext (by match c with | ⟨0, _⟩ => rfl | ⟨1, _⟩ => rfl)

/-- The reference's max-reduce over the slots, from minus infinity, at row b: the running maximum of the row's entries. -/
theorem reduce_max_row (y : (⟨S1024x100000, .f32⟩ : BufTy).Contents (Elt Ideal)) (b : Fin 1024) :
    Host.reduce (FloatOps.maximumf (F := Ideal) (φ := .f32)) y (val_main_cst_1 (F := Ideal))
        reducesTo_S1024x100000_S1024_d1 h_S_ (ix1 b)
      = (Finset.univ : Finset (Fin 100000)).fold max (⊥ : EReal) (fun s => y (ix2 b s)) := by
  have h : S1024x100000.Reduces [1] S1024 := by decide
  rw [Host.reduce_eq_fold_single (FloatOps.maximumf (F := Ideal) (φ := .f32)) y _ reducesTo_S1024x100000_S1024_d1 h h_S_,
    val_main_cst_1_apply, Ideal.ofBits_def, ofBits_neg_inf_f32]
  have hf : (y ∘ h.lift (ix1 b)) = fun s : Fin 100000 => y (ix2 b s) :=
    funext fun s => congrArg y (lift_row h b s)
  exact congrArg (fun f => Finset.fold max (⊥ : EReal) f (Finset.univ : Finset (Fin 100000))) hf

/-- The row maximum at b: minus infinity joined with the running maximum of the temperature-one logits. -/
theorem rowMax_read (b : Fin 1024) :
    val_main_v16 (F := Ideal) x0 x1 x2 x3 x4 x5 (ix1 b) = rowMax x0 x1 x2 x3 x4 x5 b := by
  rw [val_main_v16_apply, val_main_v15_apply, val_main_cst_2_apply]
  unfold val_main_v14
  rw [reduce_max_row]
  simp only [Ideal.maximumf_def, Ideal.ofBits_def, ofBits_neg_inf_f32, tlogit_read]
  rfl

/-- The shifted exponential at (b, s): the exponential of the logit less the row maximum. -/
theorem shiftedExp_read (b : Fin 1024) (s : Fin 100000) :
    val_main_v20 (F := Ideal) x0 x1 x2 x3 x4 x5 (ix2 b s) = shiftedExp x0 x1 x2 x3 x4 x5 b s := by
  rw [val_main_v20_apply, val_main_v19_apply, val_main_v18_apply, val_main_v17_apply, idx_v17_v18, rowMax_read,
    tlogit_read]
  simp only [Ideal.hostUnary_exp_def, Ideal.subf_def]
  rfl

/-- The total of row b: zero plus the sum of the shifted exponentials over the slots. -/
theorem total_read (b : Fin 1024) :
    val_main_v21 (F := Ideal) x0 x1 x2 x3 x4 x5 (ix1 b)
      = 0 + ∑ s : Fin 100000, shiftedExp x0 x1 x2 x3 x4 x5 b s := by
  rw [val_main_v21_apply, val_main_cst_3_apply]
  simp only [Ideal.ofBits_def, Ideal.ofBits_zero_f32, idx_v21, shiftedExp_read]

/-! ## The result -/

/-- The result at (b, j): the normalised shifted exponentials weighting column j of the values. -/
theorem shiftedAt_read (b : Fin 1024) (j : Fin 64) :
    val_main_v25 (F := Ideal) x0 x1 x2 x3 x4 x5 x6 (ix2 b j) = shiftedAt x0 x1 x2 x3 x4 x5 x6 b j := by
  rw [val_main_v25_apply]
  simp only [val_main_v24_apply, val_main_v23_apply, val_main_v22_apply, lidx_v25, ridx_v25, idx_v22_v23,
    shiftedExp_read, total_read, Ideal.hostDivf_def]
  rfl

end

/-- The idealized reference's result is the shifted-softmax form of the specification, as whole arrays. -/
theorem val_eq_shiftedOut (x0 : (⟨Cert.ReferenceIdeal.S1024x64, .f32⟩ : BufTy).Contents (Elt Ideal))
    (x1 : (⟨Cert.ReferenceIdeal.S64x128, .f32⟩ : BufTy).Contents (Elt Ideal))
    (x2 : (⟨Cert.ReferenceIdeal.S128, .f32⟩ : BufTy).Contents (Elt Ideal))
    (x3 : (⟨Cert.ReferenceIdeal.S128x64, .f32⟩ : BufTy).Contents (Elt Ideal))
    (x4 : (⟨Cert.ReferenceIdeal.S64, .f32⟩ : BufTy).Contents (Elt Ideal))
    (x5 x6 : (⟨Cert.ReferenceIdeal.S100000x64, .f32⟩ : BufTy).Contents (Elt Ideal)) :
    Cert.ReferenceIdeal.Read.val_main_v25 (F := Ideal) x0 x1 x2 x3 x4 x5 x6
      = Cert.Attn.shiftedOut x0 x1 x2 x3 x4 x5 x6 :=
  funext fun i =>
    (congrArg (Cert.ReferenceIdeal.Read.val_main_v25 (F := Ideal) x0 x1 x2 x3 x4 x5 x6) (eq_ix2 i)).trans
      (shiftedAt_read x0 x1 x2 x3 x4 x5 x6 (i 0) (i 1))

end Cert.Attn.RefRead

end
-- ==== Proof.FiniteInputs.lean ====
/-
  From the precondition on the arguments to real-valued arguments.

  The precondition says, of each of the seven arrays, that every entry's absolute value compares strictly below plus
  infinity, and joins the seven answers by "and".  On the extended reals the absolute value of x is max x (-x); it is
  plus infinity exactly at the two infinities.  So an entry that passes the comparison is a real number.  A reduction by
  "and" over all axes that comes out 1 had a 1 at every index, and a conjunction of bits that is 1 has both bits 1:
  the seven facts come apart one by one.
-/
import proofs.«182132_g32512902431185_cont_8to1_b_648_2_alg».proof.Pre_finite_inputs
import proofs.«182132_g32512902431185_cont_8to1_b_648_2_alg».proof.Proof.Spec
import proofs.«182132_g32512902431185_cont_8to1_b_648_2_alg».proof.Proof.Consts
import Idealize.ShloMosaic.Lib.ReduceAll
import Idealize.ShloMosaic.Lib.ValueIdx
import Idealize.ShloMosaic.PureOps.Ideal

noncomputable section

namespace Cert.Attn.Finite

open Idealize.ShloMosaic

/-- An extended real whose absolute value is strictly below plus infinity is a real number: at either infinity the
    absolute value is plus infinity itself. -/
theorem isReal_of_abs_lt_inf (x : EReal)
    (h : Ideal.cmp .olt (max x (-x)) (Ideal.ofBits .f32 0x7F800000#32) = 1#1) : Cert.Attn.IsReal x := by
  rw [Cert.Attn.Consts.ofBits_inf_f32] at h
  induction x using EReal.rec with
  | bot => simp [Ideal.cmp] at h
  | coe r => exact ⟨r, rfl⟩
  | top => simp [Ideal.cmp] at h

/-- One array: if the conjunction over all indices of "absolute value below plus infinity" is 1, every entry is a real
    number. -/
theorem allReal_of_all {s t u c : Shape} [Subsingleton t.Idx] {axes : List (Fin s.rank)} (x : FVec Ideal s .f32)
    (dims : Fin c.rank → Fin s.rank) (hb : c.BroadcastsInDim s dims) (init : IVec u 1) (hr : s.ReducesTo axes t)
    (hu : 0 < u.numel) (j : t.Idx)
    (e : Host.reduce IntOp.andi
        (cmpf .olt (Host.absf (F := Ideal) x)
          (broadcastInDim s dims hb (constant (F := Ideal) c .f32 0x7F800000#32))) init hr hu j = 1#1) :
    Cert.Attn.AllReal x := by
  intro i
  exact isReal_of_abs_lt_inf (x i) (Host.reduce_andi_all _ init hr hu j e i)

instance : Subsingleton Cert.Pre_finite_inputs.S_.Idx := ⟨fun a b => funext fun d => d.elim0⟩

open Cert.Pre_finite_inputs in
/-- The precondition holds only of arguments all of whose entries are real numbers. -/
theorem allReal_of_fn [Cert.Pre_finite_inputs.Facts]
    (a0 : FVec Ideal Cert.Pre_finite_inputs.S1024x64 .f32) (a1 : FVec Ideal Cert.Pre_finite_inputs.S64x128 .f32)
    (a2 : FVec Ideal Cert.Pre_finite_inputs.S128 .f32) (a3 : FVec Ideal Cert.Pre_finite_inputs.S128x64 .f32)
    (a4 : FVec Ideal Cert.Pre_finite_inputs.S64 .f32) (a5 a6 : FVec Ideal Cert.Pre_finite_inputs.S100000x64 .f32)
    (h : Cert.Pre_finite_inputs.fn (F := Ideal) a0 a1 a2 a3 a4 a5 a6 = fun _ => 1#1) :
    Cert.Attn.AllReal a0 ∧ Cert.Attn.AllReal a1 ∧ Cert.Attn.AllReal a2 ∧ Cert.Attn.AllReal a3 ∧ Cert.Attn.AllReal a4
      ∧ Cert.Attn.AllReal a5 ∧ Cert.Attn.AllReal a6 := by
  have h0 := congrFun h ValueIdx.ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨allReal_of_all a0 _ _ _ _ _ _ e0, allReal_of_all a1 _ _ _ _ _ _ e1, allReal_of_all a2 _ _ _ _ _ _ e2,
    allReal_of_all a3 _ _ _ _ _ _ e3, allReal_of_all a4 _ _ _ _ _ _ e4, allReal_of_all a5 _ _ _ _ _ _ e5,
    allReal_of_all a6 _ _ _ _ _ _ e6⟩

end Cert.Attn.Finite

end
-- ==== Proof.lean ====
/-
  A streaming softmax-attention kernel against its plain reference, over the extended reals.

  Both programs send each of 1024 query rows through a two-layer perceptron (64 -> 128 -> 64, a rectifier between),
  take its logits against 100000 memory keys, and return the softmax-weighted average of the memory values.

  The reference forms the full row of logits, divides it by a temperature of one, subtracts the row maximum,
  exponentiates, normalises by the row sum, and multiplies by the values.  The kernel never forms a row: over a grid of
  50 points it takes the keys and values 2000 slots at a time, and adds exp (logits) times [values | ones] into an
  accumulator of 128 columns, whose right half therefore collects the sum of the weights; after the last block it divides
  the left half by the right half.  It subtracts no maximum.

  With every input a real number the two agree: exp (l - M) = exp l * exp (-M) for any real M, the factor exp (-M) is
  common to each weight and to their sum and cancels, and the quotient by the (positive) sum comes out of the weighted
  sum.  The precondition (every input finite) is used exactly there: on the extended reals cancellation and
  distributivity fail at the infinities.  Everything else is re-association of sums, which needs no finiteness: the
  kernel's 50 partial sums over 2000 slots are one sum over 100000 slots, and a matrix product into a zero accumulator is
  the host's product.

  The three frame claims are the generated frames (the reference's is its generated run with the result dropped); the
  idealization rewrote nothing, so that claim is trivially true; the value claim sets the kernel's run, read off the
  generated frame grid point by grid point, beside the reference's generated run, read operation by operation.
-/
import proofs.«182132_g32512902431185_cont_8to1_b_648_2_alg».proof.Defs
import proofs.«182132_g32512902431185_cont_8to1_b_648_2_alg».proof.Proof.Gen.Kernel
import proofs.«182132_g32512902431185_cont_8to1_b_648_2_alg».proof.Proof.Gen.Kernel.Skeleton
import proofs.«182132_g32512902431185_cont_8to1_b_648_2_alg».proof.Proof.Gen.Kernel.Launch
import proofs.«182132_g32512902431185_cont_8to1_b_648_2_alg».proof.Proof.Gen.Kernel.Points
import proofs.«182132_g32512902431185_cont_8to1_b_648_2_alg».proof.Proof.Gen.Kernel.Frame
import proofs.«182132_g32512902431185_cont_8to1_b_648_2_alg».proof.Proof.Gen.KernelIdeal
import proofs.«182132_g32512902431185_cont_8to1_b_648_2_alg».proof.Proof.Gen.KernelIdeal.Skeleton
import proofs.«182132_g32512902431185_cont_8to1_b_648_2_alg».proof.Proof.Gen.KernelIdeal.Launch
import proofs.«182132_g32512902431185_cont_8to1_b_648_2_alg».proof.Proof.Gen.KernelIdeal.Points
import proofs.«182132_g32512902431185_cont_8to1_b_648_2_alg».proof.Proof.Gen.KernelIdeal.Frame
import proofs.«182132_g32512902431185_cont_8to1_b_648_2_alg».proof.Proof.Gen.ReferenceIdeal
import proofs.«182132_g32512902431185_cont_8to1_b_648_2_alg».proof.Proof.Gen.Pre_finite_inputs
import proofs.«182132_g32512902431185_cont_8to1_b_648_2_alg».proof.Proof.Gen.KernelIdeal.Value
import proofs.«182132_g32512902431185_cont_8to1_b_648_2_alg».proof.Proof.Gen.ReferenceIdeal.Run
import proofs.«182132_g32512902431185_cont_8to1_b_648_2_alg».proof.Proof.Gen.ReferenceIdeal.Read
import proofs.«182132_g32512902431185_cont_8to1_b_648_2_alg».proof.Proof.KernelRun
import proofs.«182132_g32512902431185_cont_8to1_b_648_2_alg».proof.Proof.RefRead
import proofs.«182132_g32512902431185_cont_8to1_b_648_2_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, all finite, the kernel ends with the streaming form of the
    result and the reference with the shifted-softmax form; the two forms agree on real-valued arguments. -/
theorem algebraic : Cert.algebraic_KernelIdeal_ReferenceIdeal := by
  intro m ρ m' ρ' hpre hagree
  refine ⟨fun c => Cert.Attn.Kernel.result m c, Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Attn.Finite.allReal_of_fn _ _ _ _ _ _ _ (hpre c)
  rw [Cert.ReferenceIdeal.Read.val_main_v25_eq, Cert.Attn.RefRead.val_eq_shiftedOut,
    (hagree c).1, (hagree c).2.1, (hagree c).2.2.1, (hagree c).2.2.2.1, (hagree c).2.2.2.2.1,
    (hagree c).2.2.2.2.2.1, (hagree c).2.2.2.2.2.2]
  exact Cert.Attn.shiftedOut_eq_streamOut h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
